-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S16384 : Shape := ⟨1, ![16384]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x1000 .f32) (main_arg1 : IVec S16384 32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 32 := constantI S_ 32 1000#32
  let main_v6 : IVec S16384 32 := broadcastInDim S16384 ![] bcast_S_S16384 main_c_1
  let main_v7 : IVec S16384 1 := cmpi .slt main_arg1 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384x1000 : Shape := ⟨2, ![16384, 1000]⟩
abbrev S16384 : Shape := ⟨1, ![16384]⟩
abbrev S_ : Shape := ⟨0, ![]⟩
abbrev S1000 : Shape := ⟨1, ![1000]⟩
abbrev S16384x1 : Shape := ⟨2, ![16384, 1]⟩
abbrev S16x1024 : Shape := ⟨2, ![16, 1024]⟩
abbrev S16x1x1024 : Shape := ⟨3, ![16, 1, 1024]⟩
abbrev S16x2x1024 : Shape := ⟨3, ![16, 2, 1024]⟩
abbrev S16x128 : Shape := ⟨2, ![16, 128]⟩
abbrev S1024x1000 : Shape := ⟨2, ![1024, 1000]⟩
abbrev S1x2x1024 : Shape := ⟨3, ![1, 2, 1024]⟩
abbrev S8x128 : Shape := ⟨2, ![8, 128]⟩
abbrev S1x1 : Shape := ⟨2, ![1, 1]⟩
abbrev S1024 : Shape := ⟨1, ![1024]⟩
abbrev S1024x1 : Shape := ⟨2, ![1024, 1]⟩
abbrev S2x1024 : Shape := ⟨2, ![2, 1024]⟩
abbrev S1x1024 : Shape := ⟨2, ![1, 1024]⟩
abbrev S1 : Shape := ⟨1, ![1]⟩

abbrev nBuf : Space → Nat
  | .hbm => 53
  | .vmem => 7
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S16384, .i32⟩
  | .hbm, ⟨6, _⟩ => ⟨S16384, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S_, .i32⟩
  | .hbm, ⟨11, _⟩ => ⟨S1000, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S_, .i32⟩
  | .hbm, ⟨21, _⟩ => ⟨S16384, .i32⟩
  | .hbm, ⟨22, _⟩ => ⟨S1000, .i32⟩
  | .hbm, ⟨23, _⟩ => ⟨S1000, .f32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384x1, .i32⟩
  | .hbm, ⟨32, _⟩ => ⟨S16384, .f32⟩
  | .hbm, ⟨33, _⟩ => ⟨S_, .f32⟩
  | .hbm, ⟨34, _⟩ => ⟨S16384, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S16384, .f32⟩
  | .hbm, ⟨40, _⟩ => ⟨S16384, .f32⟩
  | .hbm, ⟨41, _⟩ => ⟨S16384, .f32⟩
  | .hbm, ⟨42, _⟩ => ⟨S16x1024, .f32⟩
  | .hbm, ⟨43, _⟩ => ⟨S16x1024, .f32⟩
  | .hbm, ⟨44, _⟩ => ⟨S16x1x1024, .f32⟩
  | .hbm, ⟨45, _⟩ => ⟨S16x1x1024, .f32⟩
  | .hbm, ⟨46, _⟩ => ⟨S16x2x1024, .f32⟩
  | .hbm, ⟨47, _⟩ => ⟨S16x128, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1x2x1024, .f32⟩
  | .local _ .vmem, ⟨3, _⟩ => ⟨S1x2x1024, .f32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_c_1 : Ref sig .tc := ⟨.hbm, 10, rfl⟩
abbrev main_v1 : Ref sig .tc := ⟨.hbm, 11, rfl⟩
abbrev main_c_2 : Ref sig .tc := ⟨.hbm, 12, rfl⟩
abbrev main_v2 : Ref sig .tc := ⟨.hbm, 13, rfl⟩
abbrev main_v3 : Ref sig .tc := ⟨.hbm, 14, rfl⟩
abbrev main_c_3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_5 : Ref sig .tc := ⟨.hbm, 24, rfl⟩
abbrev main_v11 : Ref sig .tc := ⟨.hbm, 25, rfl⟩
abbrev main_v12 : Ref sig .tc := ⟨.hbm, 26, rfl⟩
abbrev main_c_6 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_14 : BitVec 32 := 0#32
  let v42 : BitVec 1 := Scalar.cmpi .ne v41 c0_i32_14
  v42

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S16384 : S_.BroadcastsInDim S16384 (![] : Fin 0 → Fin S16384.rank)
  bcast_S_S1000 : S_.BroadcastsInDim S1000 (![] : Fin 0 → Fin S1000.rank)
  bcast_S16384_S16384x1_0 : S16384.BroadcastsInDim S16384x1 (![0] : Fin 1 → Fin S16384x1.rank)
  shapeCasts_S16384_S16x1024 : S16384.ShapeCasts S16x1024
  bcast_S16x1024_S16x1x1024_0_2 : S16x1024.BroadcastsInDim S16x1x1024 (![0, 2] : Fin 2 → Fin S16x1x1024.rank)
  concatenates_S16x1x1024_S16x1x1024_S16x2x1024_d1 : Shape.Concatenates [S16x1x1024, S16x1x1024] S16x2x1024 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x128_S8x128_0_0 : ∀ a, (![0, 0] : Fin 2 → Nat) a + S8x128.size a ≤ S8x128.size a
  h_S8x128 : 0 < S8x128.numel
  inb_S1024x1000_S1024x1000_0_0 : ∀ a, (![0, 0] : Fin 2 → Nat) a + S1024x1000.size a ≤ S1024x1000.size a
  h_S1024x1000 : 0 < S1024x1000.numel
  reduces_S1024x1000_S1024 : S1024x1000.Reduces [1] S1024
  shapeCasts_S1024_S1024x1 : S1024.ShapeCasts S1024x1
  broadcasts_S1024x1_S1024x1000 : S1024x1.Broadcasts S1024x1000
  iota_S1024x1000_d1_w32 : S1024x1000.Iotas .tc 32 [1]
  inb_S1x2x1024_S1x2x1024_0_0_0 : ∀ a, (![0, 0, 0] : Fin 3 → Nat) a + S1x2x1024.size a ≤ S1x2x1024.size a
  h_S1x2x1024 : 0 < S1x2x1024.numel
  shapeCasts_S1x2x1024_S2x1024 : S1x2x1024.ShapeCasts S2x1024
  slices_S2x1024_o0_0_S1x1024 : S2x1024.Slices ![0, 0] S1x1024
  slices_S2x1024_o1_0_S1x1024 : S2x1024.Slices ![1, 0] S1x1024
  transposes_S1x1024_p1_0_S1024x1 : S1x1024.Transposes [1, 0] S1024x1
  reduces_S1024x1_S1 : S1024x1.Reduces [0] S1
  shapeCasts_S1_S1x1 : S1.ShapeCasts S1x1
  iota_S8x128_d0_w32 : S8x128.Iotas .tc 32 [0]
  iota_S8x128_d1_w32 : S8x128.Iotas .tc 32 [1]
  broadcasts_S1x1_S8x128 : S1x1.Broadcasts S8x128
  reducesTo_S16x128_S_d0_1 : S16x128.ReducesTo [0, 1] S_
  h_S_ : 0 < S_.numel
  scatter_S1000_S16384x1_S16384_n_0_0_1_wf : ScatterDims.WF S1000 S16384x1 S16384 [] [0] [0] 1
  gather_S1000_S16384x1_S16384_n_0_n_n_0_1_1_wf : GatherDims.WF S1000 S16384x1 S16384 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S16384x1000.size a
  hwx0_0 : ∀ i : grid0.Coords, EltTy.bits .f32 = 32 ∨ (Rect.block (s := S16384x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x1024.size a ≤ S16x2x1024.size a
  hwx0_1 : ∀ i : grid0.Coords, EltTy.bits .f32 = 32 ∨ (Rect.block (s := S16x2x1024) S1x2x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

def scatter_S1000_S16384x1_S16384_n_0_0_1 : ScatterDims S1000 S16384x1 S16384 where
  updateWindowDims := []
  insertedWindowDims := [0]
  scatterDimsToOperandDims := [0]
  indexVectorDim := 1
  wf := scatter_S1000_S16384x1_S16384_n_0_0_1_wf
def gather_S1000_S16384x1_S16384_n_0_n_n_0_1_1 : GatherDims S1000 S16384x1 S16384 where
  offsetDims := []
  collapsedSliceDims := [0]
  operandBatchingDims := []
  startIndicesBatchingDims := []
  startIndexMap := [0]
  indexVectorDim := 1
  sliceSizes := ![1]
  wf := gather_S1000_S16384x1_S16384_n_0_n_n_0_1_1_wf

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x2x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S1000 : Shape := ⟨1, ![1000]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 85
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x1000, .f32⟩
  | .hbm, ⟨9, _⟩ => ⟨S16384x1000, .f32⟩
  | .hbm, ⟨10, _⟩ => ⟨S16384x1000, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x1, .f32⟩
  | .hbm, ⟨15, _⟩ => ⟨S16384x1000, .f32⟩
  | .hbm, ⟨16, _⟩ => ⟨S16384x1000, .f32⟩
  | .hbm, ⟨17, _⟩ => ⟨S16384x1000, .f32⟩
  | .hbm, ⟨18, _⟩ => ⟨S_, .f32⟩
  | .hbm, ⟨19, _⟩ => ⟨S16384x1000, .f32⟩
  | .hbm, ⟨20, _⟩ => ⟨S16384x1000, .f32⟩
  | .hbm, ⟨21, _⟩ => ⟨S16384x1000, .f32⟩
  | .hbm, ⟨22, _⟩ => ⟨S_, .f32⟩
  | .hbm, ⟨23, _⟩ => ⟨S1000, .f32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384x1, .i32⟩
  | .hbm, ⟨32, _⟩ => ⟨S_, .f32⟩
  | .hbm, ⟨33, _⟩ => ⟨S16384, .f32⟩
  | .hbm, ⟨34, _⟩ => ⟨S1000, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S16384, .f32⟩
  | .hbm, ⟨44, _⟩ => ⟨S_, .f32⟩
  | .hbm, ⟨45, _⟩ => ⟨S16384, .f32⟩
  | .hbm, ⟨46, _⟩ => ⟨S16384, .f32⟩
  | .hbm, ⟨47, _⟩ => ⟨S_, .f32⟩
  | .hbm, ⟨48, _⟩ => ⟨S16384, .f32⟩
  | .hbm, ⟨49, _⟩ => ⟨S16384, .f32⟩
  | .hbm, ⟨50, _⟩ => ⟨S16384, .f32⟩
  | .hbm, ⟨51, _⟩ => ⟨S16384, .f32⟩
  | .hbm, ⟨52, _⟩ => ⟨S16384x1, .f32⟩
  | .hbm, ⟨53, _⟩ => ⟨S16384x1000, .f32⟩
  | .hbm, ⟨54, _⟩ => ⟨S16384x1000, .f32⟩
  | .hbm, ⟨55, _⟩ => ⟨S16384x1000, .f32⟩
  | .hbm, ⟨56, _⟩ => ⟨S16384x1, .i32⟩
  | .hbm, ⟨57, _⟩ => ⟨S_, .i32⟩
  | .hbm, ⟨58, _⟩ => ⟨S16384x1, .i32⟩
  | .hbm, ⟨59, _⟩ => ⟨S16384x1, .i1⟩
  | .hbm, ⟨60, _⟩ => ⟨S_, .i32⟩
  | .hbm, ⟨61, _⟩ => ⟨S16384x1, .i32⟩
  | .hbm, ⟨62, _⟩ => ⟨S16384x1, .i32⟩
  | .hbm, ⟨63, _⟩ => ⟨S16384x1, .i32⟩
  | .hbm, ⟨64, _⟩ => ⟨S16384x1x1, .i32⟩
  | .hbm, ⟨65, _⟩ => ⟨S1, .i32⟩
  | .hbm, ⟨66, _⟩ => ⟨S_, .i32⟩
  | .hbm, ⟨67, _⟩ => ⟨S16384x1x1, .i32⟩
  | .hbm, ⟨68, _⟩ => ⟨S16384x1x1, .i1⟩
  | .hbm, ⟨69, _⟩ => ⟨S1x1x1, .i32⟩
  | .hbm, ⟨70, _⟩ => ⟨S16384x1x1, .i32⟩
  | .hbm, ⟨71, _⟩ => ⟨S16384x1x1, .i1⟩
  | .hbm, ⟨72, _⟩ => ⟨S16384x1x1, .i1⟩
  | .hbm, ⟨73, _⟩ => ⟨S_, .i1⟩
  | .hbm, ⟨74, _⟩ => ⟨S16384x1, .i1⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_cst : Ref sig .tc := ⟨.hbm, 76, rfl⟩
abbrev main_call1_v14 : Ref sig .tc := ⟨.hbm, 77, rfl⟩
abbrev main_v32 : Ref sig .tc := ⟨.hbm, 78, rfl⟩
abbrev main_v33 : Ref sig .tc := ⟨.hbm, 79, rfl⟩
abbrev main_cst_7 : Ref sig .tc := ⟨.hbm, 80, rfl⟩
abbrev main_v34 : Ref sig .tc := ⟨.hbm, 81, rfl⟩
abbrev main_cst_8 : Ref sig .tc := ⟨.hbm, 82, rfl⟩
abbrev main_v35 : Ref sig .tc := ⟨.hbm, 83, rfl⟩
abbrev main_v36 : Ref sig .tc := ⟨.hbm, 84, rfl⟩

abbrev nD : Nat := 1
abbrev τ : Topo := Topo.v7x

variable {F : FTy → Type} [FloatOps F]

class Facts₀ : Prop where
  reducesTo_S16384x1000_S16384_d1 : S16384x1000.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  bcast_S_S16384x1000 : S_.BroadcastsInDim S16384x1000 (![] : Fin 0 → Fin S16384x1000.rank)
  bcast_S_S1000 : S_.BroadcastsInDim S1000 (![] : Fin 0 → Fin S1000.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  reducesTo_S16384_S_d0 : S16384.ReducesTo [0] S_
  scatter_S1000_S16384x1_S16384_n_0_0_1_wf : ScatterDims.WF S1000 S16384x1 S16384 [] [0] [0] 1
  gather_S1000_S16384x1_S16384_n_0_n_n_0_1_1_wf : GatherDims.WF S1000 S16384x1 S16384 [] [0] [] [0] [] 1 ![1]
  gather_S16384x1000_S16384x1x1_S16384x1_n_1_0_0_1_2_11_wf : GatherDims.WF S16384x1000 S16384x1x1 S16384x1 [] [1] [0] [1] [0] 2 ![1, 1]

variable [Facts₀]

def scatter_S1000_S16384x1_S16384_n_0_0_1 : ScatterDims S1000 S16384x1 S16384 where
  updateWindowDims := []
  insertedWindowDims := [0]
  scatterDimsToOperandDims := [0]
  indexVectorDim := 1
  wf := scatter_S1000_S16384x1_S16384_n_0_0_1_wf
def gather_S1000_S16384x1_S16384_n_0_n_n_0_1_1 : GatherDims S1000 S16384x1 S16384 where
  offsetDims := []
  collapsedSliceDims := [0]
  operandBatchingDims := []
  startIndicesBatchingDims := []
  startIndexMap := [0]
  indexVectorDim := 1
  sliceSizes := ![1]
  wf := gather_S1000_S16384x1_S16384_n_0_n_n_0_1_1_wf
def gather_S16384x1000_S16384x1x1_S16384x1_n_1_0_0_1_2_11 : GatherDims S16384x1000 S16384x1x1 S16384x1 where
  offsetDims := []
  collapsedSliceDims := [1]
  operandBatchingDims := [0]
  startIndicesBatchingDims := [0]
  startIndexMap := [1]
  indexVectorDim := 2
  sliceSizes := ![1, 1]
  wf := gather_S16384x1000_S16384x1x1_S16384x1_n_1_0_0_1_2_11_wf

class Facts : Prop extends Facts₀ where

variable [Facts]
-- ==== Proof.PreDecode.lean ====
/-
  What the precondition says of the labels: every label, read as a signed word, lies in [0, 1000).
  The precondition is the conjunction of two whole-array tests; the second one is, entry by entry,
  (0 <= label) and (label < 1000), reduced by "and" over the batch.
-/
import proofs.«413535_j55671366091232_3_alg».proof.Pre_finite_inputs
import Idealize.ShloMosaic.Lib.ReduceAll
import Idealize.ShloMosaic.Lib.StableHlo.Predicate
import Idealize.ShloMosaic.Lib.ValueIdx

noncomputable section

namespace Cert.CostSen

open Idealize.ShloMosaic Idealize.ShloMosaic.ValueIdx

/-- Under the precondition every label is a class number: 0 <= label < 1000 as a signed word. -/
theorem labels_in_range [Cert.Pre_finite_inputs.Facts] {F : FTy → Type} [FloatOps F]
    (x : FVec F Cert.Pre_finite_inputs.S16384x1000 .f32) (lab : IVec Cert.Pre_finite_inputs.S16384 32)
    (h : Cert.Pre_finite_inputs.fn (F := F) x lab = fun _ => 1#1) (e : Fin 16384) :
    0 ≤ (lab (ix1 e)).toInt ∧ (lab (ix1 e)).toInt < 1000 := by
  -- The precondition is a rank-0 array; read it at its one index.
  have h0 := congrFun h ValueIdx.ix0
  dsimp only [Cert.Pre_finite_inputs.fn] at h0
  -- A conjunction of two bits is 1 only if both are: keep the second, the test on the labels.
  have h1 := (IntOp.andi_eq_one.1 h0).2
  -- The label test is an "and" over the whole batch into a result with a single index, so every entry of the
  -- reduced array is 1, in particular entry e.
  haveI : Subsingleton Cert.Pre_finite_inputs.S_.Idx := ⟨fun a b => funext fun d => d.elim0⟩
  have h2 := Host.reduce_andi_all _ _ _ _ _ h1 (ix1 e)
  -- Entry e is itself the conjunction of the two signed comparisons (0 <= label) and (label < 1000).
  obtain ⟨h3, h4⟩ := IntOp.andi_eq_one.1 h2
  -- Each comparison against a broadcast scalar reads the scalar itself at entry e.
  have h5 : (0#32 : BitVec 32).toInt ≤ (lab (ix1 e)).toInt := by
    have t := IntOp.cmpi_sge.1 h3
    rw [StableHlo.Predicate.bcast_scalar _ Cert.Pre_finite_inputs.Facts.h_S_] at t
    exact t
  have h6 : (lab (ix1 e)).toInt < (1000#32 : BitVec 32).toInt := by
    have t := IntOp.cmpi_slt.1 h4
    rw [StableHlo.Predicate.bcast_scalar _ Cert.Pre_finite_inputs.Facts.h_S_] at t
    exact t
  -- The two 32-bit literals read, as signed words, 0 and 1000.
  have z0 : (0#32 : BitVec 32).toInt = 0 := by decide
  have z1 : (1000#32 : BitVec 32).toInt = 1000 := by decide
  rw [z0] at h5
  rw [z1] at h6
  exact ⟨h5, h6⟩

end Cert.CostSen

end
-- ==== Proof.Spec.lean ====
/-
  The loss both programs compute, as one function of the logits and the labels, over the extended reals.

  For a batch of 16384 rows of 1000 logits and one class label per row:
  * a row's log-probability at class l is (x l - max x) - log (sum over c of exp (x c - max x));
  * a row's weight is exp (r - 1) / r with r = n / 16384, n the number of rows of the batch that carry the
    row's label;
  * a row contributes (weight * (1 - p) * (1 - p)) * log p, p = exp (log p) the probability of its own label;
  * the loss is minus the mean of the contributions.
  Float literals stay the patterns the programs print (the same word on both sides is never evaluated).
-/
import Mathlib.Data.EReal.Basic
import Mathlib.Algebra.BigOperators.Group.Finset.Basic
import Idealize.ShloMosaic.PureOps.Ideal
import Idealize.ShloMosaic.PureOps.Ideal.Laws
import Idealize.ShloMosaic.Lib.ValueIdx

noncomputable section

namespace Cert.CostSen

open Idealize.ShloMosaic
open scoped BigOperators

/-- The pattern of -infinity, the maximum's starting value. -/
abbrev negInfF : EReal := Ideal.ofBits .f32 0xFF800000#32
/-- The pattern of 1.0. -/
abbrev oneF : EReal := Ideal.ofBits .f32 0x3F800000#32
/-- The pattern of +0.0. -/
abbrev zeroF : EReal := Ideal.ofBits .f32 0x00000000#32
/-- The pattern of 16384.0, the batch size. -/
abbrev batchF : EReal := Ideal.ofBits .f32 0x46800000#32

/-- The largest logit of a row (the maximum folded from -infinity). -/
def rowMax (xr : Fin 1000 → EReal) : EReal := (Finset.univ : Finset (Fin 1000)).fold max negInfF xr

/-- The logarithm of the row's sum of exponentials of the shifted logits. -/
def rowLse (xr : Fin 1000 → EReal) : EReal := Ideal.log (∑ c : Fin 1000, Ideal.exp (xr c - rowMax xr))

/-- The row's log-probability at class `l`. -/
def rowLogp (xr : Fin 1000 → EReal) (l : Fin 1000) : EReal := (xr l - rowMax xr) - rowLse xr

/-- The same with the class given as a 32-bit word and picked by a masked sum over the classes: every class whose
    number is the word contributes its shifted logit, the others +0.0. -/
def rowLogpW (xr : Fin 1000 → EReal) (L : BitVec 32) : EReal :=
  (∑ c : Fin 1000, if BitVec.ofNat 32 c.val = L then xr c - rowMax xr else zeroF) - rowLse xr

/-- One row's contribution from its weight `a` and its log-probability `lp`: (a (1 - e^lp)^2) lp. -/
def focal (a lp : EReal) : EReal := (a * ((oneF - Ideal.exp lp) * (oneF - Ideal.exp lp))) * lp

/-- The weight of a class met `n` times in the batch: e^(n/16384 - 1) / (n/16384). -/
def weight (n : EReal) : EReal := Ideal.div (Ideal.exp (Ideal.div n batchF - oneF)) (Ideal.div n batchF)

/-- How often class `c` occurs among the labels (read signed), as a sum of 1.0 patterns. -/
def count (lab : Fin 16384 → BitVec 32) (c : Fin 1000) : EReal :=
  ∑ e : Fin 16384, if (lab e).toInt = (c.val : Int) then oneF else 0

/-- A label word as a class (its value modulo 1000: the value itself for a label in range). -/
def cls (l : BitVec 32) : Fin 1000 := ⟨l.toNat % 1000, Nat.mod_lt _ (by norm_num)⟩

/-- Row `i`'s contribution. -/
def rowValue (x : Fin 16384 → Fin 1000 → EReal) (lab : Fin 16384 → BitVec 32) (i : Fin 16384) : EReal :=
  focal (weight (count lab (cls (lab i)))) (rowLogp (x i) (cls (lab i)))

/-- Minus the mean, from the sum of the contributions (the host's sum starts from +0.0). -/
def lossOfSum (s : EReal) : EReal := -(Ideal.div (zeroF + s) batchF)

/-- The loss. -/
def loss (x : Fin 16384 → Fin 1000 → EReal) (lab : Fin 16384 → BitVec 32) : EReal :=
  lossOfSum (∑ i : Fin 16384, rowValue x lab i)

/-- A label in range is the word of its class. -/
theorem ofNat_cls {l : BitVec 32} (h : 0 ≤ l.toInt ∧ l.toInt < 1000) : BitVec.ofNat 32 (cls l).val = l := by
  have hn : l.toNat < 1000 := by
    have := h.1; have := h.2
    rcases BitVec.toInt_eq_toNat_cond l with e
    by_cases hc : 2 * l.toNat < 2 ^ 32
    · rw [BitVec.toInt_eq_toNat_cond, if_pos hc] at *; omega
    · rw [BitVec.toInt_eq_toNat_cond, if_neg hc] at *; omega
  show BitVec.ofNat 32 (l.toNat % 1000) = l
  rw [Nat.mod_eq_of_lt hn, BitVec.ofNat_toNat, BitVec.setWidth_eq]

/-- The masked sum picks the label's class: for a word that is the number of a class, the two forms agree. -/
theorem rowLogpW_ofNat (xr : Fin 1000 → EReal) (l : Fin 1000) :
    rowLogpW xr (BitVec.ofNat 32 l.val) = rowLogp xr l := by
  unfold rowLogpW rowLogp
  congr 1
  rw [Finset.sum_eq_single l]
  · rw [if_pos rfl]
  · intro c _ hc
    rw [if_neg]
    · exact Ideal.ofBits_zero_f32
    · intro e
      apply hc
      have := congrArg BitVec.toNat e
      simp only [BitVec.toNat_ofNat] at this
      have h1 := c.isLt; have h2 := l.isLt
      exact Fin.ext (by omega)
  · intro h; exact absurd (Finset.mem_univ _) h

end Cert.CostSen

end
-- ==== Proof.LibScatterRows.lean ====
import Mathlib.Data.EReal.Basic
import Mathlib.Algebra.BigOperators.Group.Finset.Basic
import Idealize.ShloMosaic.PureOps.Ideal
import Idealize.ShloMosaic.Lib.ValueIdx
import Idealize.ShloMosaic.Lib.StableHlo.Predicate

/-!
# Row scatters and row gathers read at an index

A scatter whose indices are an [n × 1] column of row numbers adds update row `e` onto operand row
`idx e` (read signed; a row number outside the operand drops the update), and a gather whose start
indices are such a column reads operand row `idx e` (read signed and clamped into the operand).
Read at one element, each is a sum, or a single read, over the positions `e` of the column.
-/

open scoped BigOperators
open Idealize.ShloMosaic Idealize.ShloMosaic.ValueIdx Idealize.ShloMosaic.StableHlo.Predicate

noncomputable section

namespace Cert.ScatterRows

/-- An entry of a one-element list is that element. -/
theorem getElem_of_eq_singleton {α : Type} (l : List α) (a : α) (k : Nat) (h : k < l.length) (hl : l = [a]) :
    l[k] = a := by
  subst hl
  have hk : k = 0 := by simpa using h
  subst hk; rfl

section Vec
variable {N n w : Nat} (d : ScatterDims ⟨1, ![N]⟩ ⟨2, ![n, 1]⟩ ⟨1, ![n]⟩)

/-- The scatter-indices position an update entry reads: row `j 0` of the column. -/
theorem vec_siIdx (hsd : d.scatterDimsToOperandDims = [0]) (hivd : d.indexVectorDim = 1)
    (j : (⟨1, ![n]⟩ : Shape).Idx) (c : Fin d.scatterDimsToOperandDims.length) :
    d.siIdx j c = ixP (j 0) := by
  funext b
  match b with
  | ⟨0, _⟩ =>
    unfold ScatterDims.siIdx
    rw [dif_neg (by rw [hivd]; simp)]
    unfold ScatterDims.siCoord
    apply Fin.ext
    simp only [Fin.val_cast]
    -- the updates have one axis, so whichever of their axes is read it is that one
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- The window starts at the update's position, read signed. -/
theorem vec_start0 (hsd : d.scatterDimsToOperandDims = [0]) (hivd : d.indexVectorDim = 1)
    (j : (⟨1, ![n]⟩ : Shape).Idx) (idx : IVec ⟨2, ![n, 1]⟩ w) :
    d.start j idx 0 = (idx (ixP (j 0))).toInt := by
  have hm : (0 : Fin 1) ∈ d.scatterDimsToOperandDims := by rw [hsd]; exact List.mem_singleton.mpr rfl
  unfold ScatterDims.start
  rw [dif_pos hm, vec_siIdx d hsd hivd]
  rfl

/-- The operand's one axis is an inserted one: no window coordinate is added. -/
theorem vec_window0 (hiw : d.insertedWindowDims = [0]) (j : (⟨1, ![n]⟩ : Shape).Idx) :
    d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- Where an update entry lands: update entry `j` lands on operand entry `i` exactly when its position, read
    signed, is `i`. -/
theorem vec_resultIdx (hiw : d.insertedWindowDims = [0])
    (hsd : d.scatterDimsToOperandDims = [0]) (hivd : d.indexVectorDim = 1)
    (j : (⟨1, ![n]⟩ : Shape).Idx) (idx : IVec ⟨2, ![n, 1]⟩ w) (i : Fin N) :
    d.resultIdx? j idx = some (ix1 i) ↔ (idx (ixP (j 0))).toInt = (i.val : Int) := by
  have h0 := vec_start0 d hsd hivd j idx
  have w0 := vec_window0 d hiw j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have r0 := (hr 0).1
      rw [h0, w0] at e0 r0
      omega
    · exact absurd h (by simp)
  · intro hz
    have hr : ∀ a, 0 ≤ d.start j idx a + (d.window j a : Int) ∧
        d.start j idx a + (d.window j a : Int) < ((⟨1, ![N]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
    rw [dif_pos hr]
    congr 1
    funext a
    apply Fin.ext
    match a with
    | ⟨0, _⟩ =>
      show (d.start j idx 0 + (d.window j 0 : Int)).toNat = i.val
      rw [h0, w0, hz]; omega

end Vec

/-- A rank-1 index set is its one coordinate's range. -/
def idxEquiv1 {n : Nat} : (⟨1, ![n]⟩ : Shape).Idx ≃ Fin n where
  toFun a := a 0
  invFun e := ix1 e
  left_inv a := (eq_ix1 a).symm
  right_inv _ := rfl

/-- An accumulating scatter of a vector of `n` updates onto a vector of `N` entries along an
    [n × 1] column of positions: entry `i` ends at its old value plus the sum of the updates whose
    position, read signed, is `i`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (i : Fin N) :
    Ideal.hostScatterAdd d x idx upd (ix1 i)
      = x (ix1 i) + ∑ e : Fin n, if (idx (ixP e)).toInt = (i.val : Int) then upd (ix1 e) else 0 := by
  unfold Ideal.hostScatterAdd
  congr 1
  rw [Finset.sum_filter]
  simp only [vec_resultIdx d hiw hsd hivd]
  refine Fintype.sum_equiv idxEquiv1 _ _ fun a => ?_
  show _ = (if (idx (ixP (a 0))).toInt = (i.val : Int) then upd (ix1 (a 0)) else 0)
  rw [congrArg upd (eq_ix1 a)]
  rfl

section Rows
variable {N D n w : Nat} (d : ScatterDims ⟨2, ![N, D]⟩ ⟨2, ![n, 1]⟩ ⟨2, ![n, D]⟩)

/-- The scatter-indices position an update row reads: row `j 0` of the column. -/
theorem rows_siIdx (huw : d.updateWindowDims = [1]) (hsd : d.scatterDimsToOperandDims = [0])
    (hivd : d.indexVectorDim = 1) (j : (⟨2, ![n, D]⟩ : Shape).Idx) (c : Fin d.scatterDimsToOperandDims.length) :
    d.siIdx j c = ixP (j 0) := by
  have husc : d.uScatter = [0] := by
    show Shape.kept _ d.updateWindowDims = [0]
    rw [huw]; rfl
  funext b
  match b with
  | ⟨0, _⟩ =>
    unfold ScatterDims.siIdx
    rw [dif_neg (by rw [hivd]; simp)]
    unfold ScatterDims.siCoord
    apply Fin.ext
    simp only [Fin.val_cast]
    rw [getElem_of_eq_singleton _ _ _ _ husc]
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- On the row axis the window starts at the update's row number, read signed. -/
theorem rows_start0 (huw : d.updateWindowDims = [1]) (hsd : d.scatterDimsToOperandDims = [0])
    (hivd : d.indexVectorDim = 1) (j : (⟨2, ![n, D]⟩ : Shape).Idx) (idx : IVec ⟨2, ![n, 1]⟩ w) :
    d.start j idx 0 = (idx (ixP (j 0))).toInt := by
  have hm : (0 : Fin 2) ∈ d.scatterDimsToOperandDims := by rw [hsd]; exact List.mem_singleton.mpr rfl
  unfold ScatterDims.start
  rw [dif_pos hm, rows_siIdx d huw hsd hivd]
  rfl

/-- On the column axis, which the scatter indices do not address, the window starts at `0`. -/
theorem rows_start1 (hsd : d.scatterDimsToOperandDims = [0])
    (j : (⟨2, ![n, D]⟩ : Shape).Idx) (idx : IVec ⟨2, ![n, 1]⟩ w) :
    d.start j idx 1 = 0 := by
  have hm : (1 : Fin 2) ∉ d.scatterDimsToOperandDims := by rw [hsd]; simp
  unfold ScatterDims.start
  rw [dif_neg hm]

/-- The row axis is an inserted one: no window coordinate is added there. -/
theorem rows_window0 (hiw : d.insertedWindowDims = [0]) (j : (⟨2, ![n, D]⟩ : Shape).Idx) :
    d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- On the column axis the window coordinate is the update's own column. -/
theorem rows_window1 (huw : d.updateWindowDims = [1]) (hiw : d.insertedWindowDims = [0])
    (j : (⟨2, ![n, D]⟩ : Shape).Idx) :
    d.window j 1 = (j 1).val := by
  have hk : (1 : Fin 2) ∈ d.sKept := by
    show (1 : Fin 2) ∈ Shape.kept _ d.insertedWindowDims
    rw [hiw]; simp [Shape.kept]
  unfold ScatterDims.window
  rw [dif_pos hk, getElem_of_eq_singleton _ _ _ _ huw]

/-- Where an update element lands: update element `j` lands on operand element `(i, q)` exactly when its row
    number, read signed, is `i` and its column is `q`. -/
theorem rows_resultIdx (huw : d.updateWindowDims = [1]) (hiw : d.insertedWindowDims = [0])
    (hsd : d.scatterDimsToOperandDims = [0]) (hivd : d.indexVectorDim = 1)
    (j : (⟨2, ![n, D]⟩ : Shape).Idx) (idx : IVec ⟨2, ![n, 1]⟩ w) (i : Fin N) (q : Fin D) :
    d.resultIdx? j idx = some (ix2 i q) ↔ (idx (ixP (j 0))).toInt = (i.val : Int) ∧ (j 1).val = q.val := by
  have h0 := rows_start0 d huw hsd hivd j idx
  have h1 := rows_start1 d hsd j idx
  have w0 := rows_window0 d hiw j
  have w1 := rows_window1 d huw hiw j
  have hj1 : (j 1).val < D := idx2_lt1 j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have e1 : (d.start j idx 1 + (d.window j 1 : Int)).toNat = q.val := congrArg (fun f => (f 1).val) hf
      have r0 := (hr 0).1
      rw [h0, w0] at e0 r0
      rw [h1, w1] at e1
      exact ⟨by omega, by omega⟩
    · exact absurd h (by simp)
  · rintro ⟨hz, hq⟩
    have hr : ∀ a, 0 ≤ d.start j idx a + (d.window j a : Int) ∧
        d.start j idx a + (d.window j a : Int) < ((⟨2, ![N, D]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
      | ⟨1, _⟩ =>
        show 0 ≤ d.start j idx 1 + (d.window j 1 : Int) ∧ d.start j idx 1 + (d.window j 1 : Int) < (D : Int)
        rw [h1, w1]; omega
    rw [dif_pos hr]
    congr 1
    funext a
    apply Fin.ext
    match a with
    | ⟨0, _⟩ =>
      show (d.start j idx 0 + (d.window j 0 : Int)).toNat = i.val
      rw [h0, w0, hz]; omega
    | ⟨1, _⟩ =>
      show (d.start j idx 1 + (d.window j 1 : Int)).toNat = q.val
      rw [h1, w1]; omega

end Rows

/-- An accumulating scatter of `n` update rows of width `D` onto an [N × D] operand along an
    [n × 1] column of row numbers: element `(i, q)` ends at its old value plus the sum over the
    update rows whose row number, read signed, is `i` of their element `q`. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (i : Fin N) (q : Fin D) :
    Ideal.hostScatterAdd d x idx upd (ix2 i q)
      = x (ix2 i q) + ∑ e : Fin n, if (idx (ixP e)).toInt = (i.val : Int) then upd (ix2 e q) else 0 := by
  unfold Ideal.hostScatterAdd
  congr 1
  rw [Finset.sum_filter]
  simp only [rows_resultIdx d huw hiw hsd hivd]
  rw [sum_idx2]
  refine Finset.sum_congr rfl fun e _ => ?_
  show (∑ b : Fin D, if (idx (ixP e)).toInt = (i.val : Int) ∧ b.val = q.val then upd (ix2 e b) else 0) = _
  by_cases hz : (idx (ixP e)).toInt = (i.val : Int)
  · simp only [hz, true_and, if_true]
    rw [Finset.sum_eq_single q]
    · rw [if_pos rfl]
    · intro b _ hb; rw [if_neg (fun h => hb (Fin.ext h))]
    · intro h; exact absurd (Finset.mem_univ q) h
  · simp only [hz, false_and, if_false, Finset.sum_const_zero]

section Gather
variable {N D n w : Nat} (d : GatherDims ⟨2, ![N, D]⟩ ⟨2, ![n, 1]⟩ ⟨2, ![n, D]⟩)

/-- The start-indices position a result row reads: row `e` of the column. -/
theorem gather_siIdx (hoff : d.offsetDims = [1]) (hsim : d.startIndexMap = [0]) (hivd : d.indexVectorDim = 1)
    (e : Fin n) (q : Fin D) (c : Fin d.startIndexMap.length) : d.siIdx (ix2 e q) c = ixP e := by
  have hbatch : d.batchDims = [0] := by
    show Shape.kept _ d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    rw [getElem_of_eq_singleton _ _ _ _ hbatch]
    rfl
  | ⟨1, _⟩ =>
    unfold GatherDims.siIdx
    rw [dif_pos (by rw [hivd])]
    apply Fin.ext
    have hc : c.val < d.startIndexMap.length := c.isLt
    have hl : d.startIndexMap.length = 1 := by rw [hsim]; rfl
    show c.val = 0
    omega

/-- On the row axis the operand index is the start index, read signed and clamped into `[0, N − 1]`
    (the slice there has size one; no batching or offset coordinate is added). -/
theorem gather_rows_coord0 (hoff : d.offsetDims = [1]) (hcoll : d.collapsedSliceDims = [0])
    (hob : d.operandBatchingDims = []) (hsim : d.startIndexMap = [0]) (hivd : d.indexVectorDim = 1)
    (idx : IVec ⟨2, ![n, 1]⟩ w) (e : Fin n) (q : Fin D) :
    (d.operandIdx (ix2 e q) idx 0).val = min (idx (ixP e)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [gather_siIdx d hoff hsim hivd, hsl]
  rfl

/-- On the column axis the operand index is the result's own column: the start is `0` (the axis is not
    start-indexed) and the offset coordinate is the result's second coordinate. -/
theorem gather_rows_coord1 (hoff : d.offsetDims = [1]) (hcoll : d.collapsedSliceDims = [0])
    (hob : d.operandBatchingDims = []) (hsim : d.startIndexMap = [0])
    (idx : IVec ⟨2, ![n, 1]⟩ w) (e : Fin n) (q : Fin D) :
    (d.operandIdx (ix2 e q) idx 1).val = q.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, GatherDims.offCoord, dif_pos hk,
    Nat.add_zero, GatherDims.start, dif_neg hm, Nat.zero_add]
  rw [getElem_of_eq_singleton _ _ _ _ hoff]
  rfl

end Gather

/-- A gather of rows of an [N × D] operand along an [n × 1] column of row numbers: element `(e, q)`
    of the result is the operand's element `q` of the row whose number is position `e`'s, read
    signed and clamped into `[0, N − 1]`. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (q : Fin D) (hN : 0 < N) :
    Host.gather d x idx (ix2 e q)
      = x (ix2 (⟨min (idx (ixP e)).toInt.toNat (N - 1), by omega⟩ : Fin N) q) := by
  unfold Host.gather
  congr 1
  funext a
  apply Fin.ext
  match a with
  | ⟨0, _⟩ => exact gather_rows_coord0 d hoff hcoll hob hsim hivd idx e q
  | ⟨1, _⟩ => exact gather_rows_coord1 d hoff hcoll hob hsim idx e q

end Cert.ScatterRows

end
-- ==== Proof.Counts.lean ====
/-
  Counting the labels: the host's two ways of building the class histogram — an integer accumulating scatter of ones, later
  converted to floats, and a float accumulating scatter of 1.0s — both give, at class c, the number of labels equal to c;
  and the take of a table at a label in range reads the table at the label's class.
-/
import proofs.«413535_j55671366091232_3_alg».proof.Proof.Spec
import proofs.«413535_j55671366091232_3_alg».proof.Proof.LibScatterRows
import Idealize.ShloMosaic.Lib.ValueIdx
import Idealize.ShloMosaic.Lib.StableHlo.Predicate
import Idealize.ShloMosaic.Lib.IdealHost
import Idealize.ShloMosaic.PureOps.Ideal.Laws
import Mathlib.Algebra.BigOperators.Ring.Finset
import Mathlib.Algebra.BigOperators.Fin

noncomputable section

namespace Cert.CostSen.Counts

open Idealize.ShloMosaic Idealize.ShloMosaic.ValueIdx Idealize.ShloMosaic.StableHlo.Predicate Cert.CostSen
open scoped BigOperators

/-- Folding "the entry a position aims at grows by one" over a list of positions: each entry grows by the number of
    positions of the list aimed at it (a position aimed nowhere changes nothing). -/
theorem foldl_succ_at {ι κ : Type} [DecidableEq κ] (t : ι → Option κ)
    (step : (κ → BitVec 32) → ι → (κ → BitVec 32))
    (hstep : ∀ r n i, step r n i = if t n = some i then r i + 1#32 else r i)
    (l : List ι) (r : κ → BitVec 32) (i : κ) :
    l.foldl step r i = r i + BitVec.ofNat 32 ((l.map fun n => if t n = some i then 1 else 0).sum) := by
  induction l generalizing r with
  | nil => simp
  | cons a l ih =>
    rw [List.foldl_cons, ih, hstep, List.map_cons, List.sum_cons]
    by_cases h : t a = some i
    · rw [if_pos h, if_pos h, BitVec.ofNat_add, BitVec.add_assoc]
    · rw [if_neg h, if_neg h, Nat.zero_add]

/-- The accumulating scatter of ones onto zeros: each entry ends at the word of the number of update positions, in
    row-major order, that land on it. -/
theorem scatter_entry (d : ScatterDims ⟨1, ![1000]⟩ ⟨2, ![16384, 1]⟩ ⟨1, ![16384]⟩)
    (idx : IVec ⟨2, ![16384, 1]⟩ 32) (i : (⟨1, ![1000]⟩ : Shape).Idx) :
    Host.scatter d IntOp.addi (fun _ => (0#32 : BitVec 32)) idx (fun _ => (1#32 : BitVec 32)) i
      = BitVec.ofNat 32 (∑ n : Fin (⟨1, ![16384]⟩ : Shape).numel,
          if d.resultIdx? ((⟨1, ![16384]⟩ : Shape).rowMajor.symm n) idx = some i then 1 else 0) := by
  unfold Host.scatter
  refine (foldl_succ_at (fun n => d.resultIdx? ((⟨1, ![16384]⟩ : Shape).rowMajor.symm n) idx) _ ?_ _ _ _).trans ?_
  · -- one step of the fold, read at one entry
    intro r n k
    generalize d.resultIdx? ((⟨1, ![16384]⟩ : Shape).rowMajor.symm n) idx = o
    cases o with
    | none =>
      show r k = if none = some k then r k + 1#32 else r k
      rw [if_neg (by simp)]
    | some j =>
      show (if k = j then IntOp.addi (r j) 1#32 else r k) = if some j = some k then r k + 1#32 else r k
      by_cases hkj : k = j
      · subst hkj
        rw [if_pos rfl, if_pos rfl]
        rfl
      · rw [if_neg hkj, if_neg (fun h => hkj (Option.some.inj h).symm)]
  · -- the sum along the list of all positions is the sum over the positions
    rw [BitVec.zero_add, Fin.sum_univ_def]

/-- The float histogram: zeros plus, at class `c`, one 1.0 per label equal to `c`. -/
theorem float_count (d : ScatterDims ⟨1, ![1000]⟩ ⟨2, ![16384, 1]⟩ ⟨1, ![16384]⟩)
    (huw : d.updateWindowDims = []) (hiw : d.insertedWindowDims = [0])
    (hsd : d.scatterDimsToOperandDims = [0]) (hivd : d.indexVectorDim = 1)
    (idx : IVec ⟨2, ![16384, 1]⟩ 32) (c : Fin 1000) :
    Ideal.hostScatterAdd d (fun _ => zeroF) idx (fun _ => oneF) (ix1 c) = count (fun e => idx (ixP e)) c := by
  rw [Cert.ScatterRows.hostScatterAdd_vec d huw hiw hsd hivd]
  show zeroF + (∑ e : Fin 16384, if (idx (ixP e)).toInt = (c.val : Int) then oneF else 0) = _
  have hz : zeroF = 0 := Ideal.ofBits_zero_f32
  rw [hz, zero_add]
  rfl

/-- The integer histogram (the row-major fold of +1 over the labels), converted to a float: the same count. -/
theorem int_count (d : ScatterDims ⟨1, ![1000]⟩ ⟨2, ![16384, 1]⟩ ⟨1, ![16384]⟩)
    (huw : d.updateWindowDims = []) (hiw : d.insertedWindowDims = [0])
    (hsd : d.scatterDimsToOperandDims = [0]) (hivd : d.indexVectorDim = 1)
    (idx : IVec ⟨2, ![16384, 1]⟩ 32) (c : Fin 1000) :
    ((((Host.scatter d IntOp.addi (fun _ => (0#32 : BitVec 32)) idx (fun _ => (1#32 : BitVec 32))) (ix1 c)).toInt : ℝ) : EReal)
      = count (fun e => idx (ixP e)) c := by
  -- the positions landing on class c, counted in row-major order, are the labels equal to c
  have hk : (∑ n : Fin (⟨1, ![16384]⟩ : Shape).numel,
          if d.resultIdx? ((⟨1, ![16384]⟩ : Shape).rowMajor.symm n) idx = some (ix1 c) then 1 else 0)
      = (Finset.univ.filter fun e : Fin 16384 => (idx (ixP e)).toInt = (c.val : Int)).card := by
    rw [Finset.card_filter]
    rw [Equiv.sum_comp (⟨1, ![16384]⟩ : Shape).rowMajor.symm (fun j => if d.resultIdx? j idx = some (ix1 c) then 1 else 0)]
    refine Fintype.sum_equiv Cert.ScatterRows.idxEquiv1 _ _ fun a => ?_
    show _ = if (idx (ixP (a 0))).toInt = (c.val : Int) then 1 else 0
    simp only [Cert.ScatterRows.vec_resultIdx d hiw hsd hivd]
  rw [scatter_entry, hk]
  generalize hkdef : (Finset.univ.filter fun e : Fin 16384 => (idx (ixP e)).toInt = (c.val : Int)).card = k
  -- at most 16384 labels: the word of the count does not wrap, and reads signed as the count
  have hle : k ≤ 16384 := by
    rw [← hkdef]
    exact (Finset.card_le_univ _).trans (by simp)
  rw [toInt_ofNat_small k (by omega)]
  -- a sum of 1.0s, one per label equal to c, is the count
  unfold count
  have h1 : oneF = 1 := Ideal.ofBits_one_f32
  rw [h1, Finset.sum_boole, hkdef, Int.cast_natCast]
  rfl

/-- The take of a 1000-entry table at a label in range reads the label's class. -/
theorem take_at {α : Type} (d : GatherDims ⟨1, ![1000]⟩ ⟨2, ![16384, 1]⟩ ⟨1, ![16384]⟩)
    (hcoll : d.collapsedSliceDims = [0]) (hob : d.operandBatchingDims = [])
    (hsim : d.startIndexMap = [0]) (hivd : d.indexVectorDim = 1)
    (tbl : (⟨1, ![1000]⟩ : Shape).Idx → α) (idx : IVec ⟨2, ![16384, 1]⟩ 32) (e : Fin 16384)
    (h : 0 ≤ (idx (ixP e)).toInt ∧ (idx (ixP e)).toInt < 1000) :
    Host.gather d tbl idx (ix1 e) = tbl (ix1 (cls (idx (ixP e)))) := by
  have hix : ∀ (n : Nat) (p : Fin n), (Shape.Idx.ofFin p : (⟨1, ![n]⟩ : Shape).Idx) = ix1 p := by
    intro n p
    funext a
    match a with
    | ⟨0, _⟩ => exact Fin.ext rfl
  have hg := gather_take d hcoll hob hsim hivd tbl idx e (by norm_num)
  rw [hix, hix] at hg
  rw [hg]
  congr 2
  apply Fin.ext
  show min (idx (ixP e)).toInt.toNat (1000 - 1) = (idx (ixP e)).toNat % 1000
  generalize idx (ixP e) = l at h ⊢
  -- a word whose signed value lies in [0, 1000) has that value unsigned too
  have hn : l.toNat < 1000 ∧ l.toInt = (l.toNat : Int) := by
    rcases h with ⟨h1, h2⟩
    by_cases hc : 2 * l.toNat < 2 ^ 32
    · rw [BitVec.toInt_eq_toNat_cond, if_pos hc] at *; omega
    · rw [BitVec.toInt_eq_toNat_cond, if_neg hc] at *; omega
  rw [hn.2]
  omega

end Cert.CostSen.Counts

end
-- ==== Proof.RefValue.lean ====
/-
  The reference's result is the loss of Spec.lean, for labels in range.
-/
import proofs.«413535_j55671366091232_3_alg».proof.Proof.RefReadP
import proofs.«413535_j55671366091232_3_alg».proof.Proof.Spec
import proofs.«413535_j55671366091232_3_alg».proof.Proof.LibScatterRows
import proofs.«413535_j55671366091232_3_alg».proof.Proof.Counts
import Idealize.ShloMosaic.Lib.ValueIdx
import Idealize.ShloMosaic.Lib.StableHlo.Predicate
import Idealize.ShloMosaic.PureOps.Ideal.Laws

noncomputable section

namespace Cert.ReferenceIdeal.RefValue

open Idealize.ShloMosaic Idealize.ShloMosaic.ValueIdx Cert.ReferenceIdeal Cert.CostSen
open scoped BigOperators

/-- The row's maximum: the host's fold from -infinity over the row, once more joined with -infinity. -/
theorem rowmax_at (x : FVec Ideal S16384x1000 .f32) (i : Fin 16384) :
    ReadP.val_main_call0_v2 (F := Ideal) x (ix1 i) = rowMax (fun k => x (ix2 i k)) := by
  rw [ReadP.val_main_call0_v2_apply, ReadP.val_main_call0_v1_apply, ReadP.val_main_call0_cst_0_apply]
  unfold ReadP.val_main_call0_v0
  have hr : S16384x1000.Reduces [1] S16384 := by decide
  rw [Host.reduce_eq_fold_single FloatOps.maximumf x _ _ hr, ReadP.val_main_call0_cst_apply]
  have hx : (x ∘ hr.lift (ix1 i)) = fun k : Fin 1000 => x (ix2 i k) :=
    funext fun k => congrArg x (funext fun a => Fin.ext (by match a with | ⟨0, _⟩ => rfl | ⟨1, _⟩ => rfl))
  rw [hx]
  show max negInfF ((Finset.univ : Finset (Fin 1000)).fold max negInfF fun k => x (ix2 i k)) = _
  exact max_eq_right ((Finset.le_fold_max _).mpr (Or.inl le_rfl))

/-- A row's shifted logit: the logit minus the row's maximum. -/
theorem shift_at (x : FVec Ideal S16384x1000 .f32) (i : Fin 16384) (k : Fin 1000) :
    ReadP.val_main_call0_v5 (F := Ideal) x (ix2 i k) = x (ix2 i k) - rowMax (fun c => x (ix2 i c)) := by
  rw [ReadP.val_main_call0_v5_apply, ReadP.val_main_call0_v4_apply, ReadP.val_main_call0_v3_apply]
  have hi : ReadP.idx_main_call0_v3 (ReadP.idx_main_call0_v4 (ix2 i k)) = ix1 i :=
    funext fun a => Fin.ext (by match a with | ⟨0, _⟩ => rfl)
  rw [hi, rowmax_at]
  rfl

/-- A row's sum of exponentials of the shifted logits, from the host's initial +0.0. -/
theorem sumexp_at (x : FVec Ideal S16384x1000 .f32) (i : Fin 16384) :
    ReadP.val_main_call0_v7 (F := Ideal) x (ix1 i)
      = zeroF + ∑ c : Fin 1000, Ideal.exp (x (ix2 i c) - rowMax (fun c => x (ix2 i c))) := by
  rw [ReadP.val_main_call0_v7_apply, ReadP.val_main_call0_cst_1_apply]
  refine congrArg (_ + ·) (Finset.sum_congr rfl fun c _ => ?_)
  rw [ReadP.val_main_call0_v6_apply]
  have hi : ReadP.idx_main_call0_v7 (ix1 i) c = ix2 i c :=
    funext fun a => Fin.ext (by match a with | ⟨0, _⟩ => rfl | ⟨1, _⟩ => rfl)
  rw [hi, shift_at]
  rfl

/-- The log-softmax entry (i, k) is the row's log-probability at class k. -/
theorem logp_at (x : FVec Ideal S16384x1000 .f32) (i : Fin 16384) (k : Fin 1000) :
    ReadP.val_main_v0 (F := Ideal) x (ix2 i k) = rowLogp (fun c => x (ix2 i c)) k := by
  rw [ReadP.val_main_v0_apply, shift_at, ReadP.val_main_call0_v10_apply, ReadP.val_main_call0_v9_apply,
    ReadP.val_main_call0_v8_apply]
  have hi : ReadP.idx_main_call0_v8 (ReadP.idx_main_call0_v10 (ix2 i k)) = ix1 i :=
    funext fun a => Fin.ext (by match a with | ⟨0, _⟩ => rfl)
  rw [hi, sumexp_at]
  unfold rowLogp rowLse
  simp only [Ideal.subf_def, Ideal.hostUnary_log_def]
  have hz : zeroF = 0 := Ideal.ofBits_zero_f32
  rw [hz, zero_add]

/-- A select on "the word is negative, read signed" takes its second branch at a word that is not negative. -/
theorem wrap_nonneg (a b : BitVec 32) (h : 0 ≤ a.toInt) : Scalar.select (IntOp.cmpi .slt a 0#32) b a = a := by
  have hne : ¬ IntOp.cmpi .slt a 0#32 = 1#1 := by
    rw [IntOp.cmpi_slt, BitVec.toInt_zero]
    omega
  exact if_neg hne

/-- The histogram's index column at row e: the label itself when it is not negative. -/
theorem idxcol11_at (lab : IVec S16384 32) (e : Fin 16384) (h : 0 ≤ (lab (ix1 e)).toInt) :
    ReadP.val_main_v11 (F := Ideal) lab (StableHlo.Predicate.ixP e) = lab (ix1 e) := by
  rw [ReadP.val_main_v11_apply]
  have hi : ReadP.idx_main_v11 (StableHlo.Predicate.ixP e) = ix1 e :=
    funext fun a => Fin.ext (by match a with | ⟨0, _⟩ => rfl)
  rw [hi, ReadP.val_main_v10_apply, ReadP.val_main_v7_apply, ReadP.val_main_v6_apply, ReadP.val_main_c_apply]
  exact wrap_nonneg _ _ h

/-- The take's index column at row e: the label itself when it is not negative. -/
theorem idxcol19_at (lab : IVec S16384 32) (e : Fin 16384) (h : 0 ≤ (lab (ix1 e)).toInt) :
    ReadP.val_main_v19 (F := Ideal) lab (StableHlo.Predicate.ixP e) = lab (ix1 e) := by
  rw [ReadP.val_main_v19_apply]
  have hi : ReadP.idx_main_v19 (StableHlo.Predicate.ixP e) = ix1 e :=
    funext fun a => Fin.ext (by match a with | ⟨0, _⟩ => rfl)
  rw [hi, ReadP.val_main_v18_apply, ReadP.val_main_v15_apply, ReadP.val_main_v14_apply, ReadP.val_main_c_3_apply]
  exact wrap_nonneg _ _ h

/-- The float histogram at class c: the number of labels equal to c. -/
theorem hist_at (lab : IVec S16384 32) (h : ∀ e : Fin 16384, 0 ≤ (lab (ix1 e)).toInt) (c : Fin 1000) :
    ReadP.val_main_v13 (F := Ideal) lab (ix1 c) = count (fun e => lab (ix1 e)) c := by
  unfold ReadP.val_main_v13 Host.scatterAdd
  rw [Ideal.hostScatterAdd_def]
  have h5 : ReadP.val_main_v5 (F := Ideal) = fun _ => zeroF :=
    funext fun j => by rw [ReadP.val_main_v5_apply, ReadP.val_main_cst_0_apply]; rfl
  have h12 : ReadP.val_main_v12 (F := Ideal) = fun _ => oneF :=
    funext fun j => by rw [ReadP.val_main_v12_apply, ReadP.val_main_cst_2_apply]; rfl
  rw [h5, h12, Counts.float_count _ rfl rfl rfl rfl]
  exact congrArg (fun f => count f c) (funext fun e => idxcol11_at lab e (h e))

/-- The count gathered for row i: how often the row's own label occurs. -/
theorem ni_at (lab : IVec S16384 32)
    (h : ∀ e : Fin 16384, 0 ≤ (lab (ix1 e)).toInt ∧ (lab (ix1 e)).toInt < 1000) (i : Fin 16384) :
    ReadP.val_main_v20 (F := Ideal) lab (ix1 i) = count (fun e => lab (ix1 e)) (cls (lab (ix1 i))) := by
  unfold ReadP.val_main_v20
  have h19 := idxcol19_at lab i (h i).1
  rw [Counts.take_at _ rfl rfl rfl rfl _ _ i (by rw [h19]; exact h i), h19, hist_at lab (fun e => (h e).1)]

/-- The weight of row i: e^(r - 1) / r at r the row's count over the batch size. -/
theorem weight_at (lab : IVec S16384 32)
    (h : ∀ e : Fin 16384, 0 ≤ (lab (ix1 e)).toInt ∧ (lab (ix1 e)).toInt < 1000) (i : Fin 16384) :
    ReadP.val_main_v26 (F := Ideal) lab (ix1 i) = weight (count (fun e => lab (ix1 e)) (cls (lab (ix1 i)))) := by
  rw [ReadP.val_main_v26_apply, ReadP.val_main_v25_apply, ReadP.val_main_v24_apply, ReadP.val_main_v22_apply,
    ReadP.val_main_v21_apply, ReadP.val_main_cst_5_apply, ReadP.val_main_v23_apply, ReadP.val_main_cst_6_apply,
    ni_at lab h i]
  rfl

/-- The cost-sensitive entry (i, k): the row's weight times (1 - p)^2 times the log-probability, p = e^(log-probability). -/
theorem cs_at (x : FVec Ideal S16384x1000 .f32) (lab : IVec S16384 32)
    (h : ∀ e : Fin 16384, 0 ≤ (lab (ix1 e)).toInt ∧ (lab (ix1 e)).toInt < 1000) (i : Fin 16384) (k : Fin 1000) :
    ReadP.val_main_v30 (F := Ideal) x lab (ix2 i k)
      = focal (weight (count (fun e => lab (ix1 e)) (cls (lab (ix1 i))))) (rowLogp (fun c => x (ix2 i c)) k) := by
  rw [ReadP.val_main_v30_apply, ReadP.val_main_v29_apply, ReadP.val_main_v28_apply, ReadP.val_main_v27_apply]
  have hi : ReadP.idx_main_v27 (ReadP.idx_main_v28 (ix2 i k)) = ix1 i :=
    funext fun a => Fin.ext (by match a with | ⟨0, _⟩ => rfl)
  rw [hi, weight_at lab h i, ReadP.val_main_v4_apply, ReadP.val_main_v3_apply, ReadP.val_main_v2_apply,
    ReadP.val_main_cst_apply, ReadP.val_main_v1_apply, logp_at]
  rfl

/-- The take-along-axis index at (i, 0, 0): the label of row i when it is not negative. -/
theorem idx5_at (lab : IVec S16384 32) (h : ∀ e : Fin 16384, 0 ≤ (lab (ix1 e)).toInt) (j : S16384x1x1.Idx) :
    ReadP.val_main_call1_v5 (F := Ideal) lab j = lab (ix1 (j 0)) := by
  have hi : ReadP.idx_main_v31 (ReadP.idx_main_call1_v5 j) = ix1 (j 0) :=
    funext fun a => Fin.ext (by
      match a with
      | ⟨0, _⟩ =>
        have h1 : (j 1).val < 1 := (j 1).isLt
        have h2 : (j 2).val < 1 := (j 2).isLt
        show (((j 0).val * 1 + (j 1).val) * 1 + (j 2).val) / 1 = (j 0).val
        omega)
  rw [ReadP.val_main_call1_v5_apply, ReadP.val_main_call1_v4_apply, ReadP.val_main_call1_v1_apply,
    ReadP.val_main_call1_v0_apply, ReadP.val_main_call1_c_apply, ReadP.val_main_v31_apply, hi]
  exact wrap_nonneg _ _ (h (j 0))

/-- A conjunction folded from 1 over bits that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, hl => by
    rw [List.foldl_cons, hl a List.mem_cons_self]
    exact foldl_andi_ones f l (fun n hn => hl n (List.mem_cons_of_mem _ hn))

/-- For labels in range every index passes the bounds test 0 ≤ index ≤ 999. -/
theorem inb_at (lab : IVec S16384 32)
    (h : ∀ e : Fin 16384, 0 ≤ (lab (ix1 e)).toInt ∧ (lab (ix1 e)).toInt < 1000) (j : S16384x1x1.Idx) :
    ReadP.val_main_call1_v11 (F := Ideal) lab j = 1#1 := by
  rw [ReadP.val_main_call1_v11_apply, ReadP.val_main_call1_v7_apply, ReadP.val_main_call1_v10_apply,
    ReadP.val_main_call1_v6_apply, ReadP.val_main_call1_c_2_apply, ReadP.val_main_call1_v9_apply,
    ReadP.val_main_call1_v8_apply, ReadP.val_main_call1_c_1_apply, idx5_at lab (fun e => (h e).1)]
  have h9 : (999#32 : BitVec 32).toInt = 999 := by decide
  refine IntOp.andi_eq_one.2 ⟨IntOp.cmpi_sge.2 ?_, IntOp.cmpi_sle.2 ?_⟩
  · rw [BitVec.toInt_zero]; exact (h (j 0)).1
  · rw [h9]; have := (h (j 0)).2; omega

/-- So the mask over the size-one axis is set everywhere. -/
theorem mask_at (lab : IVec S16384 32)
    (h : ∀ e : Fin 16384, 0 ≤ (lab (ix1 e)).toInt ∧ (lab (ix1 e)).toInt < 1000) (j : S16384x1.Idx) :
    ReadP.val_main_call1_v12 (F := Ideal) lab j = 1#1 := by
  unfold ReadP.val_main_call1_v12
  rw [Host.reduce_eq_foldl, ReadP.val_main_call1_c_3_apply]
  exact foldl_andi_ones _ _ (fun n _ => inb_at lab h n)

section TakeAlong

/-- Equal lists read at equal positions give equal entries. -/
theorem getElem_congr {α : Type} (l l' : List α) (k k' : Nat) (h : k < l.length) (hl : l = l') (hk : k = k')
    (h' : k' < l'.length) : l[k] = l'[k'] := by
  subst hl; subst hk; rfl

/-- An index read at equal axes gives equal coordinates. -/
theorem idx_val_congr {t : Shape} (j : t.Idx) {a b : Fin t.rank} (h : a = b) : (j a).val = (j b).val := by
  subst h; rfl

variable (d : GatherDims ⟨2, ![16384, 1000]⟩ ⟨3, ![16384, 1, 1]⟩ ⟨2, ![16384, 1]⟩)

/-- With no offset axes both result axes are batch axes; start-indices axis 0 reads the result's axis 0. -/
theorem take_siCoord0 (hoff : d.offsetDims = []) (hivd : d.indexVectorDim = 2)
    (j : (⟨2, ![16384, 1]⟩ : Shape).Idx) (b : Fin 3) (hb : b ∈ d.siKept) (hb0 : b = 0) :
    (d.siCoord j b hb).val = (j 0).val := by
  subst hb0
  have hbatch : d.batchDims = [0, 1] := by
    show Shape.kept _ d.offsetDims = [0, 1]
    rw [hoff]; rfl
  have hkept : d.siKept = [0, 1] := by
    show (List.finRange 3).filter (fun x => decide (x.val ≠ d.indexVectorDim)) = [0, 1]
    rw [hivd]; rfl
  unfold GatherDims.siCoord
  simp only [Fin.val_cast]
  refine idx_val_congr j ?_
  exact getElem_congr _ [0, 1] _ 0 _ hbatch (by rw [hkept]; rfl) (by decide)

/-- The start-indices position result (i, 0) reads: (i, 0, 0). -/
theorem take_siIdx (hoff : d.offsetDims = []) (hsim : d.startIndexMap = [1]) (hivd : d.indexVectorDim = 2)
    (i : Fin 16384) (c : Fin d.startIndexMap.length) : d.siIdx (ix2 i 0) c = ix3 i 0 0 := by
  funext b
  match b with
  | ⟨0, _⟩ =>
    unfold GatherDims.siIdx
    rw [dif_neg (by rw [hivd]; simp)]
    exact Fin.ext (take_siCoord0 d hoff hivd _ _ _ rfl)
  | ⟨1, _⟩ =>
    unfold GatherDims.siIdx
    rw [dif_neg (by rw [hivd]; simp)]
    apply Fin.ext
    have h1 : (d.siCoord (ix2 i 0) (⟨1, by decide⟩ : Fin 3) (List.mem_filter.2 ⟨List.mem_finRange _, by rw [hivd]; simp⟩)).val < 1 :=
      Fin.isLt _
    show _ = 0
    omega
  | ⟨2, _⟩ =>
    unfold GatherDims.siIdx
    rw [dif_pos (by rw [hivd])]
    apply Fin.ext
    have hc : c.val < d.startIndexMap.length := c.isLt
    have hl : d.startIndexMap.length = 1 := by rw [hsim]; rfl
    show c.val = 0
    omega

end TakeAlong

section TakeAlongRead

variable (d : GatherDims ⟨2, ![16384, 1000]⟩ ⟨3, ![16384, 1, 1]⟩ ⟨2, ![16384, 1]⟩)

/-- On the batching axis the operand index is the result's row. -/
theorem take_coord0 (hoff : d.offsetDims = []) (hob : d.operandBatchingDims = [0])
    (hsb : d.startIndicesBatchingDims = [0]) (hsim : d.startIndexMap = [1]) (hivd : d.indexVectorDim = 2)
    (idx : IVec ⟨3, ![16384, 1, 1]⟩ 32) (i : Fin 16384) :
    (d.operandIdx (ix2 i 0) idx 0).val = i.val := by
  have hm : (0 : Fin 2) ∉ d.startIndexMap := by rw [hsim]; simp
  have hb : (0 : Fin 2) ∈ d.operandBatchingDims := by rw [hob]; exact List.mem_singleton.mpr rfl
  have hk : (0 : Fin 2) ∉ d.sKept := by rw [GatherDims.mem_sKept, hob]; simp
  simp only [GatherDims.operandIdx, GatherDims.start, dif_neg hm, GatherDims.offCoord_eq_zero _ _ _ hk, Nat.zero_add,
    Nat.add_zero, GatherDims.batchCoord, dif_pos hb]
  refine (take_siCoord0 d hoff hivd _ _ _ ?_).trans rfl
  exact getElem_congr _ [0] _ 0 _ hsb (by rw [hob]; rfl) (by decide)

/-- On the class axis the operand index is the start index read signed and clamped into [0, 999]. -/
theorem take_coord1 (hoff : d.offsetDims = []) (hcoll : d.collapsedSliceDims = [1]) (hob : d.operandBatchingDims = [0])
    (hsim : d.startIndexMap = [1]) (hivd : d.indexVectorDim = 2)
    (idx : IVec ⟨3, ![16384, 1, 1]⟩ 32) (i : Fin 16384) :
    (d.operandIdx (ix2 i 0) idx 1).val = min (idx (ix3 i 0 0)).toInt.toNat (1000 - 1) := by
  have hm : (1 : Fin 2) ∈ d.startIndexMap := by rw [hsim]; exact List.mem_singleton.mpr rfl
  have hb : (1 : Fin 2) ∉ d.operandBatchingDims := by rw [hob]; simp
  have hk : (1 : Fin 2) ∉ d.sKept := by rw [GatherDims.mem_sKept, hcoll]; simp
  have hsl : d.sliceSizes 1 = 1 := d.slice_collapsed 1 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [take_siIdx d hoff hsim hivd, hsl]
  rfl

end TakeAlongRead

/-- A word that is not negative, read signed, reads the same unsigned. -/
theorem toNat_of_toInt_nonneg (v : BitVec 32) (h : 0 ≤ v.toInt) : v.toInt.toNat = v.toNat := by
  rw [BitVec.toInt_eq_toNat_cond] at h ⊢
  have := v.isLt
  split at h <;> split <;> omega

/-- The take along the class axis at row i: the clamp of a label in range is the label, so the entry read is the row's
    entry at the label's class. -/
theorem take_at30 {α : Type} (cs : S16384x1000.Idx → α) (idx : IVec S16384x1x1 32) (i : Fin 16384)
    (hr : 0 ≤ (idx (ix3 i 0 0)).toInt ∧ (idx (ix3 i 0 0)).toInt < 1000) :
    Host.gather gather_S16384x1000_S16384x1x1_S16384x1_n_1_0_0_1_2_11 cs idx (ix2 i 0)
      = cs (ix2 i (cls (idx (ix3 i 0 0)))) := by
  unfold Host.gather
  congr 1
  funext a
  apply Fin.ext
  match a with
  | ⟨0, _⟩ => exact take_coord0 _ rfl rfl rfl rfl rfl idx i
  | ⟨1, _⟩ =>
    refine (take_coord1 _ rfl rfl rfl rfl rfl idx i).trans ?_
    have hn := toNat_of_toInt_nonneg _ hr.1
    have h2 := hr.2
    show min (idx (ix3 i 0 0)).toInt.toNat (1000 - 1) = (idx (ix3 i 0 0)).toNat % 1000
    omega

/-- Row i's picked entry is the row's contribution. -/
theorem picked_at (x : FVec Ideal S16384x1000 .f32) (lab : IVec S16384 32)
    (h : ∀ e : Fin 16384, 0 ≤ (lab (ix1 e)).toInt ∧ (lab (ix1 e)).toInt < 1000) (i : Fin 16384) :
    ReadP.val_main_v33 (F := Ideal) x lab (ix1 i) = rowValue (fun i k => x (ix2 i k)) (fun e => lab (ix1 e)) i := by
  rw [ReadP.val_main_v33_apply]
  have hi : ReadP.idx_main_v33 (ix1 i) = ix2 i 0 :=
    funext fun a => Fin.ext (by match a with | ⟨0, _⟩ => exact Nat.div_one _ | ⟨1, _⟩ => rfl)
  rw [hi, ReadP.val_main_v32_apply, mask_at lab h, select_one]
  unfold ReadP.val_main_call1_v13
  have h5 : ReadP.val_main_call1_v5 (F := Ideal) lab (ix3 i 0 0) = lab (ix1 i) := idx5_at lab (fun e => (h e).1) _
  rw [take_at30 _ _ i (by rw [h5]; exact h i), h5, cs_at x lab h i]
  rfl

/-- The reference's last stage (the run's result term) is the loss, read off the argument arrays row by row. -/
theorem ref_value [Cert.ReferenceIdeal.Facts] (x : FVec Ideal S16384x1000 .f32) (lab : IVec S16384 32)
    (h : ∀ e : Fin 16384, 0 ≤ (lab (ix1 e)).toInt ∧ (lab (ix1 e)).toInt < 1000) :
    Cert.ReferenceIdeal.ReadP.val_main_v36 (F := Ideal) x lab
      = fun _ => loss (fun i k => x (ix2 i k)) (fun e => lab (ix1 e)) := by
  funext j
  rw [ReadP.val_main_v36_apply, ReadP.val_main_v35_apply, ReadP.val_main_v34_apply, ReadP.val_main_cst_8_apply,
    ReadP.val_main_cst_7_apply]
  have hs : ∑ a : S16384.Idx, ReadP.val_main_v33 (F := Ideal) x lab a
      = ∑ i : Fin 16384, rowValue (fun i k => x (ix2 i k)) (fun e => lab (ix1 e)) i :=
    Fintype.sum_equiv Cert.ScatterRows.idxEquiv1 _ _ fun a =>
      (congrArg (ReadP.val_main_v33 (F := Ideal) x lab) (eq_ix1 a)).trans (picked_at x lab h (a 0))
  rw [hs]
  rfl

end Cert.ReferenceIdeal.RefValue

end
-- ==== Proof.KernelPieces.lean ====
/-
  What each control case of the kernel body leaves in the running-sum scratch and in the output block, as the body's
  arithmetic of the blocks it loaded: the first tile of a core resets both and adds its partial sum to the reset value, a
  middle tile adds its partial sum to what the tile before left, the last tile does the same and writes the masked sum out.
-/
import proofs.«413535_j55671366091232_3_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile leaves in the scratch the sum the tile before left plus its own partial sum. -/
theorem sout_B (c : Dev nD) (i : grid0.Coords) (arg2 : Memref sig .tc .vmem S1024x1000 .f32) (harg2 : arg2.IsWhole)
    (arg3 : Memref sig .tc .vmem S1x2x1024 .f32) (harg3 : arg3.IsWhole) (arg4 : Memref sig .tc .vmem S8x128 .f32) (harg4 : arg4.IsWhole)
    (arg5 : Memref sig .tc .vmem S1x1 .f32) (harg5 : arg5.IsWhole) (hc0 : ¬cond0_0 i) (hc1 : ¬cond0_1 i)
    (x0 : Vec F S1024x1000 .f32) (x1 : Vec F S1x2x1024 .f32) (xs0 : Vec F S1x1 .f32) :
    sout0_B_0 c i arg2 harg2 arg3 harg3 arg4 harg4 arg5 harg5 hc0 hc1 x0 x1 xs0 = k0_pay4 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg4.read_unread, harg5.read_unread,
    View.ld_unit_zero (S := S1024x1000) hz2, View.ld_unit_zero (S := S1x2x1024) hz3, View.ld_unit_zero (S := S1x1) hz2,
    View.ld_unit_zero (S := S8x128) hz2]

/-- The last tile of a core leaves the same in the scratch. -/
theorem sout_C (c : Dev nD) (i : grid0.Coords) (arg2 : Memref sig .tc .vmem S1024x1000 .f32) (harg2 : arg2.IsWhole)
    (arg3 : Memref sig .tc .vmem S1x2x1024 .f32) (harg3 : arg3.IsWhole) (arg4 : Memref sig .tc .vmem S8x128 .f32) (harg4 : arg4.IsWhole)
    (arg5 : Memref sig .tc .vmem S1x1 .f32) (harg5 : arg5.IsWhole) (hc0 : ¬cond0_0 i) (hc1 : cond0_1 i)
    (x0 : Vec F S1024x1000 .f32) (x1 : Vec F S1x2x1024 .f32) (xs0 : Vec F S1x1 .f32) :
    sout0_C_0 c i arg2 harg2 arg3 harg3 arg4 harg4 arg5 harg5 hc0 hc1 x0 x1 xs0 = k0_pay4 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg4.read_unread, harg5.read_unread,
    View.ld_unit_zero (S := S1024x1000) hz2, View.ld_unit_zero (S := S1x2x1024) hz3, View.ld_unit_zero (S := S1x1) hz2,
    View.ld_unit_zero (S := S8x128) hz2]

/-- … and writes the output block from the sum it has just stored. -/
theorem out_C (c : Dev nD) (i : grid0.Coords) (arg2 : Memref sig .tc .vmem S1024x1000 .f32) (harg2 : arg2.IsWhole)
    (arg3 : Memref sig .tc .vmem S1x2x1024 .f32) (harg3 : arg3.IsWhole) (arg4 : Memref sig .tc .vmem S8x128 .f32) (harg4 : arg4.IsWhole)
    (arg5 : Memref sig .tc .vmem S1x1 .f32) (harg5 : arg5.IsWhole) (hc0 : ¬cond0_0 i) (hc1 : cond0_1 i)
    (x0 : Vec F S1024x1000 .f32) (x1 : Vec F S1x2x1024 .f32) (xs0 : Vec F S1x1 .f32) :
    out0_C_2 c i arg2 harg2 arg3 harg3 arg4 harg4 arg5 harg5 hc0 hc1 x0 x1 xs0 = k0_pay1 (k0_pay4 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg4.read_unread, harg5.read_unread,
    View.ld_unit_zero (S := S1024x1000) hz2, View.ld_unit_zero (S := S1x2x1024) hz3, View.ld_unit_zero (S := S1x1) hz2,
    View.ld_unit_zero (S := S8x128) hz2, View.readCov_unit_zero (S := S1x1) _ hz2]

/-- The first tile of a core resets the scratch and adds its partial sum to the reset value. -/
theorem sout_A (c : Dev nD) (i : grid0.Coords) (arg2 : Memref sig .tc .vmem S1024x1000 .f32) (harg2 : arg2.IsWhole)
    (arg3 : Memref sig .tc .vmem S1x2x1024 .f32) (harg3 : arg3.IsWhole) (arg4 : Memref sig .tc .vmem S8x128 .f32) (harg4 : arg4.IsWhole)
    (arg5 : Memref sig .tc .vmem S1x1 .f32) (harg5 : arg5.IsWhole) (hc0 : cond0_0 i) (hc1 : ¬cond0_1 i)
    (x0 : Vec F S1024x1000 .f32) (x1 : Vec F S1x2x1024 .f32) :
    sout0_A_0 c i arg2 harg2 arg3 harg3 arg4 harg4 arg5 harg5 hc0 hc1 x0 x1 = k0_pay4 x0 x1 (k0_pay2 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2]
  simp only [View.readAt_eq_ld, harg2.read_unread, harg3.read_unread, harg4.read_unread, harg5.read_unread,
    View.ld_unit_zero (S := S1024x1000) hz2, View.ld_unit_zero (S := S1x2x1024) hz3, View.ld_unit_zero (S := S1x1) hz2,
    View.ld_unit_zero (S := S8x128) hz2, View.readCov_unit_zero (S := S1x1) _ hz2]

/-- … and resets the output block. -/
theorem out_A (c : Dev nD) (i : grid0.Coords) (arg2 : Memref sig .tc .vmem S1024x1000 .f32) (harg2 : arg2.IsWhole)
    (arg3 : Memref sig .tc .vmem S1x2x1024 .f32) (harg3 : arg3.IsWhole) (arg4 : Memref sig .tc .vmem S8x128 .f32) (harg4 : arg4.IsWhole)
    (arg5 : Memref sig .tc .vmem S1x1 .f32) (harg5 : arg5.IsWhole) (hc0 : cond0_0 i) (hc1 : ¬cond0_1 i)
    (x0 : Vec F S1024x1000 .f32) (x1 : Vec F S1x2x1024 .f32) :
    out0_A_2 c i arg2 harg2 arg3 harg3 arg4 harg4 arg5 harg5 hc0 hc1 x0 x1 = k0_pay3 (F := F) := by
  unfold out0_A_2
  rw [View.read_writes_eq_canon _ _ _ (cover0_A_2 c i arg2 harg2 arg3 harg3 arg4 harg4 arg5 harg5 hc0 hc1 x0 x1)]
  unfold kernelRun0_A
  dsimp only
  sl_unfold_words
  rw [View.canon_unit_zero hz2]

end Cert.KernelIdeal.Pieces

end
-- ==== Proof.KernelAcc.lean ====
/-
  The running sum over the grid. A core's eight tiles are visited in order; the scratch holds, after a tile, the reset value
  plus the partial sums of the core's tiles up to that one, and after a core's last tile the output block holds the masked
  running sum. By induction on the grid point, over the three control cases.
-/
import proofs.«413535_j55671366091232_3_alg».proof.Proof.KernelPieces

set_option maxRecDepth 16384

noncomputable section

namespace Cert.KernelIdeal.Acc

open Idealize.ShloMosaic Idealize.ShloMosaic.TcCoe Idealize.SL.Sem
open Cert.KernelIdeal Cert.KernelIdeal.Gen Cert.KernelIdeal.Pieces

variable {F : FTy → Type} [FloatOps F]
variable (m : (ℓ : Loc nD τ sig) → Buf (Elt F) ℓ)

/-- The logits block of grid point `t`, at its literal type. -/
abbrev xblk (c : Dev nD) (t : Fin cfg0.N) : Vec F S1024x1000 .f32 := iblk m c 0 t
/-- The side-input block (labels and weights) of grid point `t`. -/
abbrev sblk (c : Dev nD) (t : Fin cfg0.N) : Vec F S1x2x1024 .f32 := iblk m c 1 t

/-- The scratch after grid point `n`: a core's first tile (n ≡ 0 mod 8) starts from the reset value, every other tile from
    what the tile before left. -/
def acc (c : Dev nD) : (n : ℕ) → n < cfg0.N → Vec F S1x1 .f32
  | 0, h => k0_pay4 (xblk m c ⟨0, h⟩) (sblk m c ⟨0, h⟩) (k0_pay2 (F := F))
  | n + 1, h =>
    if (n + 1) % 8 = 0 then k0_pay4 (xblk m c ⟨n + 1, h⟩) (sblk m c ⟨n + 1, h⟩) (k0_pay2 (F := F))
    else k0_pay4 (xblk m c ⟨n + 1, h⟩) (sblk m c ⟨n + 1, h⟩) (acc c n (Nat.lt_of_succ_lt h))

theorem acc_first (c : Dev nD) (n : ℕ) (h : n < cfg0.N) (h0 : n % 8 = 0) :
    acc m c n h = k0_pay4 (xblk m c ⟨n, h⟩) (sblk m c ⟨n, h⟩) (k0_pay2 (F := F)) := by
  cases n with
  | zero => rfl
  | succ n => exact if_pos h0

theorem acc_next (c : Dev nD) (n : ℕ) (h : n + 1 < cfg0.N) (h0 : ¬(n + 1) % 8 = 0) :
    acc m c (n + 1) h = k0_pay4 (xblk m c ⟨n + 1, h⟩) (sblk m c ⟨n + 1, h⟩) (acc m c n (Nat.lt_of_succ_lt h)) :=
  if_neg h0

/-- What the generated run says the scratch holds after point `n` is the running sum. -/
theorem scratch_eq (c : Dev nD) : ∀ (n : ℕ) (h : n < cfg0.N), (outsAt0 m c n h).2 = acc m c n h
  | 0, h => by
    rw [outsAt0_A m c ⟨0, h⟩ rfl (show ¬(0 : ℕ) % 8 = 7 by decide)]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      scM0_0 (Memref.isWhole_whole _) _ _ (iblk m c 0 ⟨0, h⟩) (iblk m c 1 ⟨0, h⟩)
  | n + 1, h => by
    by_cases h0 : (n + 1) % 8 = 0
    · have h1 : ¬(n + 1) % 8 = 7 := by omega
      rw [outsAt0_A m c ⟨n + 1, h⟩ h0 h1]
      dsimp only
      rw [acc_first m c (n + 1) h h0]
      exact sout_A c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)
    · by_cases h1 : (n + 1) % 8 = 7
      · rw [outsAt0_C m c ⟨n + 1, h⟩ h0 h1]
        dsimp only
        rw [acc_next m c n h h0, ← scratch_eq c n (Nat.lt_of_succ_lt h)]
        exact sout_C c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) _ _ (iblk m c 0 ⟨n + 1, h⟩) (iblk m c 1 ⟨n + 1, h⟩)
          (outsAt0 m c n (Nat.lt_of_succ_lt h)).2
      · rw [outsAt0_B m c ⟨n + 1, h⟩ h0 h1]
        dsimp only
        rw [acc_next m c n h h0, ← scratch_eq c n (Nat.lt_of_succ_lt h)]
        exact sout_B c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) _ _ (iblk m c 0 ⟨n + 1, h⟩) (iblk m c 1 ⟨n + 1, h⟩)
          (outsAt0 m c n (Nat.lt_of_succ_lt h)).2

/-- After a core's last tile (n ≡ 7 mod 8) the output block holds the masked running sum. -/
theorem out_last (c : Dev nD) (n : ℕ) (h : n < cfg0.N) (h1 : n % 8 = 7) :
    (outsAt0 m c n h).1 = k0_pay1 (acc m c n h) := by
  cases n with
  | zero => exact absurd h1 (by decide)
  | succ n =>
    have h0 : ¬(n + 1) % 8 = 0 := by omega
    rw [outsAt0_C m c ⟨n + 1, h⟩ h0 h1]
    dsimp only
    rw [acc_next m c n h h0, ← scratch_eq m c n (Nat.lt_of_succ_lt h)]
    exact out_C c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) scM0_0 (Memref.isWhole_whole _) _ _ (iblk m c 0 ⟨n + 1, h⟩) (iblk m c 1 ⟨n + 1, h⟩)
      (outsAt0 m c n (Nat.lt_of_succ_lt h)).2

end Cert.KernelIdeal.Acc

end
-- ==== Proof.LibKeepdims.lean ====
/-
  Column forms of the keepdims layout operations read at an index given by coordinates: a vector `[a]` viewed as a
  column `[a, 1]`, and a column `[a, 1]` laid along every column of an `[a, b]` matrix.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelBody.lean ====
/-
  The kernel body's arithmetic at the extended reals, as functions of the blocks it loads: one tile's partial sum added to
  the running sum, the reset values, and the final masked write of the running sum.
-/
import proofs.«413535_j55671366091232_3_alg».proof.Proof.Gen.KernelIdeal.Skeleton
import proofs.«413535_j55671366091232_3_alg».proof.Proof.Spec
import proofs.«413535_j55671366091232_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.BodyValue

open Idealize.ShloMosaic Idealize.ShloMosaic.ValueIdx
open Cert.KernelIdeal Cert.KernelIdeal.Gen Cert.CostSen
open scoped BigOperators

/-! ## Words -/

/-- An equality test of two words gives the bit 1 exactly when they are equal. -/
theorem cmpi_eq_one_iff {w : Nat} (a b : BitVec w) : IntOp.cmpi .eq a b = 1#1 ↔ a = b :=
  StableHlo.Predicate.cmpi_eq_iff

/-- The conjunction of two bits is 1 exactly when both are. -/
theorem andi_one_iff (c d : BitVec 1) : IntOp.andi c d = 1#1 ↔ c = 1#1 ∧ d = 1#1 := by
  revert c d; decide

/-- A small number's word is the zero word exactly when the number is zero. -/
theorem ofNat_eq_zero_iff {n : Nat} (h : n < 2 ^ 32) : BitVec.ofNat 32 n = 0#32 ↔ n = 0 := by
  constructor
  · intro e
    have := congrArg BitVec.toNat e
    simp only [BitVec.toNat_ofNat, BitVec.toNat_zero] at this
    omega
  · rintro rfl; rfl

/-! ## Reductions of the literal shapes read by coordinates -/

/-- Over a result row `r` of a [1024, 1000] array reduced along axis 1, the inserted index is `(r, k)`. -/
theorem lift_row (h : S1024x1000.Reduces [1] S1024) (r : Fin 1024) (k : Fin 1000) :
    h.lift (ix1 r) k = ix2 r k :=
  funext fun c => match c with
    | ⟨0, _⟩ => Fin.ext rfl
    | ⟨1, _⟩ => Fin.ext rfl

/-- Over the one result entry of a [1024, 1] column reduced along axis 0, the inserted index is `(r, 0)`. -/
theorem lift_col (h : S1024x1.Reduces [0] S1) (u : Fin 1) (r : Fin 1024) :
    h.lift (ix1 u) r = ix2 r (0 : Fin 1) :=
  funext fun c => match c with
    | ⟨0, _⟩ => Fin.ext rfl
    | ⟨1, _⟩ => Fin.ext (by show (u : ℕ) = 0; omega)

/-- A row maximum: the fold of `max` from the accumulator's value over the row's entries. -/
theorem rowMaxRed_apply (v : FVec Ideal S1024x1000 .f32) (acc : BitVec 32) (h : S1024x1000.Reduces [1] S1024)
    (hφ : FKind.Formats .f32) (hacc : acc = FKind.maximumf.neutral .f32 hφ) (r : Fin 1024) :
    multiReduction .maximumf [1] S1024 v acc h hφ hacc (ix1 r)
      = (Finset.univ : Finset (Fin 1000)).fold max (Ideal.ofBits .f32 acc) (fun k => v (ix2 r k)) := by
  refine (Ideal.multiReduction_maximumf_single v acc h hφ hacc (ix1 r)).trans ?_
  have hf : (v ∘ h.lift (ix1 r)) = fun k : Fin 1000 => v (ix2 r k) := funext fun k => congrArg v (lift_row h r k)
  exact congrArg (fun f => Finset.fold max (Ideal.ofBits .f32 acc) f (Finset.univ : Finset (Fin 1000))) hf

/-- A row sum: the sum of the row's entries (the neutral accumulator adds nothing). -/
theorem rowSumRed_apply (v : FVec Ideal S1024x1000 .f32) (acc : BitVec 32) (h : S1024x1000.Reduces [1] S1024)
    (hφ : FKind.Formats .f32) (hacc : acc = FKind.add.neutral .f32 hφ) (r : Fin 1024) :
    multiReduction .add [1] S1024 v acc h hφ hacc (ix1 r) = ∑ k : Fin 1000, v (ix2 r k) := by
  refine (Ideal.multiReduction_add_single v acc h hφ hacc (ix1 r)).trans ?_
  exact Finset.sum_congr rfl fun k _ => congrArg v (lift_row h r k)

/-- The sum of a [1024, 1] column. -/
theorem colSumRed_apply (v : FVec Ideal S1024x1 .f32) (acc : BitVec 32) (h : S1024x1.Reduces [0] S1)
    (hφ : FKind.Formats .f32) (hacc : acc = FKind.add.neutral .f32 hφ) (u : Fin 1) :
    multiReduction .add [0] S1 v acc h hφ hacc (ix1 u) = ∑ r : Fin 1024, v (ix2 r (0 : Fin 1)) := by
  refine (Ideal.multiReduction_add_single v acc h hφ hacc (ix1 u)).trans ?_
  exact Finset.sum_congr rfl fun r _ => congrArg v (lift_col h u r)

/-! ## The side block's planes as columns -/

/-- The [1, 2, 1024] block viewed [2, 1024] reads, at `(p, r)`, plane `p` at row `r`. -/
theorem planes_apply {α : Type} (x : S1x2x1024.Idx → α) (h : S1x2x1024.ShapeCasts S2x1024) (p : Fin 2) (r : Fin 1024) :
    shapeCast S2x1024 x h (ix2 p r) = x (ix3 (0 : Fin 1) p r) :=
  shapeCast_apply x h _ _ (by
    rw [Shape.rowMajor_val_three, Shape.rowMajor_val_two]
    show ((0 : ℕ) * 2 + p.val) * 1024 + r.val = p.val * 1024 + r.val
    omega)

/-- The slice [1, 1024] at offset `(0, 0)` of a [2, 1024] array reads row 0. -/
theorem slice0_apply {α : Type} (x : S2x1024.Idx → α) (h : S2x1024.Slices ![0, 0] S1x1024) (u : Fin 1) (r : Fin 1024) :
    extractStridedSlice S1x1024 ![0, 0] x h (ix2 u r) = x (ix2 (0 : Fin 2) r) :=
  extractStridedSlice_apply ![0, 0] x h _ _ fun a => match a with
    | ⟨0, _⟩ => by show (0 : ℕ) = 0 + u.val; omega
    | ⟨1, _⟩ => by show r.val = 0 + r.val; omega

/-- The slice [1, 1024] at offset `(1, 0)` of a [2, 1024] array reads row 1. -/
theorem slice1_apply {α : Type} (x : S2x1024.Idx → α) (h : S2x1024.Slices ![1, 0] S1x1024) (u : Fin 1) (r : Fin 1024) :
    extractStridedSlice S1x1024 ![1, 0] x h (ix2 u r) = x (ix2 (1 : Fin 2) r) :=
  extractStridedSlice_apply ![1, 0] x h _ _ fun a => match a with
    | ⟨0, _⟩ => by show (1 : ℕ) = 1 + u.val; omega
    | ⟨1, _⟩ => by show r.val = 0 + r.val; omega

/-- A [1, 1024] row transposed to a [1024, 1] column reads, at `(r, u)`, the row's entry `r`. -/
theorem rowToCol_apply {α : Type} (x : S1x1024.Idx → α) (h : S1x1024.Transposes [1, 0] S1024x1) (r : Fin 1024) (u : Fin 1) :
    transpose S1024x1 [1, 0] x h (ix2 r u) = x (ix2 (0 : Fin 1) r) :=
  transpose_apply [1, 0] x h _ _ fun b => match b with
    | ⟨0, _⟩ => rfl
    | ⟨1, _⟩ => by show (0 : ℕ) = u.val; omega

/-! ## The tile's intermediate vectors, named -/

/-- The row maxima. -/
def vMax (x0 : Vec Ideal S1024x1000 .f32) : FVec Ideal S1024 .f32 :=
  multiReduction .maximumf [1] S1024 x0 0xFF800000#32 reduces_S1024x1000_S1024 (.inl rfl) rfl

/-- The shifted logits: each entry minus its row's maximum. -/
def vSh (x0 : Vec Ideal S1024x1000 .f32) : FVec Ideal S1024x1000 .f32 :=
  subf x0 (broadcastTo S1024x1000 (shapeCast S1024x1 (vMax x0) shapeCasts_S1024_S1024x1) broadcasts_S1024x1_S1024x1000)

/-- The column of the rows' log-sum-exponentials. -/
def vLse (x0 : Vec Ideal S1024x1000 .f32) : FVec Ideal S1024x1 .f32 :=
  log (shapeCast S1024x1
    (multiReduction .add [1] S1024 (exp (vSh x0)) 0x00000000#32 reduces_S1024x1000_S1024 (.inl rfl) rfl)
    shapeCasts_S1024_S1024x1)

/-- The column of the rows' label words. -/
def vLab (x1 : Vec Ideal S1x2x1024 .f32) : IVec S1024x1 32 :=
  transpose S1024x1 [1, 0]
    (fptosi 32 (extractStridedSlice S1x1024 ![0, 0]
      (shapeCast S2x1024 x1 shapeCasts_S1x2x1024_S2x1024 : FVec Ideal S2x1024 .f32) slices_S2x1024_o0_0_S1x1024 : FVec Ideal S1x1024 .f32))
    transposes_S1x1024_p1_0_S1024x1

/-- The column of the rows' weights. -/
def vW (x1 : Vec Ideal S1x2x1024 .f32) : FVec Ideal S1024x1 .f32 :=
  transpose S1024x1 [1, 0]
    (extractStridedSlice S1x1024 ![1, 0]
      (shapeCast S2x1024 x1 shapeCasts_S1x2x1024_S2x1024 : FVec Ideal S2x1024 .f32) slices_S2x1024_o1_0_S1x1024 : FVec Ideal S1x1024 .f32)
    transposes_S1x1024_p1_0_S1024x1

/-- The column of the rows' log-probabilities at their labels. -/
def vLp (x0 : Vec Ideal S1024x1000 .f32) (x1 : Vec Ideal S1x2x1024 .f32) : FVec Ideal S1024x1 .f32 :=
  subf
    (shapeCast S1024x1
      (multiReduction .add [1] S1024
        (select
          (cmpi .eq (iota .tc S1024x1000 32 [1] iota_S1024x1000_d1_w32)
            (broadcastTo S1024x1000 (vLab x1) broadcasts_S1024x1_S1024x1000))
          (vSh x0) (broadcast S1024x1000 (Scalar.ofBits .f32 0x00000000#32)))
        0x00000000#32 reduces_S1024x1000_S1024 (.inl rfl) rfl)
      shapeCasts_S1024_S1024x1)
    (vLse x0)

/-- The column of the rows' contributions. -/
def vTerm (x0 : Vec Ideal S1024x1000 .f32) (x1 : Vec Ideal S1x2x1024 .f32) : FVec Ideal S1024x1 .f32 :=
  mulf
    (mulf (vW x1)
      (mulf (subf (broadcast S1024x1 (Scalar.ofBits .f32 0x3F800000#32)) (exp (vLp x0 x1)))
        (subf (broadcast S1024x1 (Scalar.ofBits .f32 0x3F800000#32)) (exp (vLp x0 x1)))))
    (vLp x0 x1)

/-- The tile's payload over the named vectors. -/
theorem pay4_struct (x0 : Vec Ideal S1024x1000 .f32) (x1 : Vec Ideal S1x2x1024 .f32) (a : Vec Ideal S1x1 .f32) :
    k0_pay4 (F := Ideal) x0 x1 a
      = shapeCast S1x1
          (addf a
            (shapeCast S1x1
              (multiReduction .add [0] S1 (vTerm x0 x1) 0x00000000#32 reduces_S1024x1_S1 (.inl rfl) rfl)
              shapeCasts_S1_S1x1))
          shapeCasts_S1x1_S1x1 := rfl

/-! ## The named vectors read by coordinates -/

/-- Row `r`'s maximum. -/
theorem vMax_apply (x0 : Vec Ideal S1024x1000 .f32) (r : Fin 1024) :
    vMax x0 (ix1 r) = rowMax (fun k => x0 (ix2 r k)) :=
  rowMaxRed_apply x0 _ _ _ _ r

/-- The shifted logit at `(r, k)`. -/
theorem vSh_apply (x0 : Vec Ideal S1024x1000 .f32) (r : Fin 1024) (k : Fin 1000) :
    vSh x0 (ix2 r k) = x0 (ix2 r k) - rowMax (fun c => x0 (ix2 r c)) := by
  unfold vSh
  rw [subf_apply, Cert.LibKeepdims.broadcastTo_a1_ab_apply, Cert.LibKeepdims.shapeCast_a_a1_apply, vMax_apply]

/-- Row `r`'s logarithm of the sum of the exponentials of its shifted logits. -/
theorem vLse_apply (x0 : Vec Ideal S1024x1000 .f32) (r : Fin 1024) (u : Fin 1) :
    vLse x0 (ix2 r u) = rowLse (fun k => x0 (ix2 r k)) := by
  unfold vLse rowLse
  show Ideal.log (shapeCast S1024x1 _ _ (ix2 r u)) = _
  rw [Cert.LibKeepdims.shapeCast_a_a1_apply]
  refine congrArg Ideal.log ?_
  refine (rowSumRed_apply _ _ _ _ _ r).trans ?_
  refine Finset.sum_congr rfl fun k _ => ?_
  show Ideal.exp (vSh x0 (ix2 r k)) = _
  rw [vSh_apply]

/-- Row `r`'s label word: plane 0 of the side block at `r`, converted to a word. -/
theorem vLab_apply (x1 : Vec Ideal S1x2x1024 .f32) (r : Fin 1024) (u : Fin 1) :
    vLab x1 (ix2 r u) = Ideal.fptosi 32 (x1 (ix3 (0 : Fin 1) (0 : Fin 2) r)) := by
  unfold vLab
  rw [rowToCol_apply]
  show Ideal.fptosi 32 (extractStridedSlice (s := S2x1024) S1x1024 ![0, 0] _ _ (ix2 (0 : Fin 1) r)) = _
  rw [slice0_apply, planes_apply]

/-- Row `r`'s weight: plane 1 of the side block at `r`. -/
theorem vW_apply (x1 : Vec Ideal S1x2x1024 .f32) (r : Fin 1024) (u : Fin 1) :
    vW x1 (ix2 r u) = x1 (ix3 (0 : Fin 1) (1 : Fin 2) r) := by
  unfold vW
  rw [rowToCol_apply, slice1_apply, planes_apply]

/-- Row `r`'s log-probability at its label: the masked sum of the shifted logits minus the log-sum-exponential. -/
theorem vLp_apply (x0 : Vec Ideal S1024x1000 .f32) (x1 : Vec Ideal S1x2x1024 .f32) (r : Fin 1024) (u : Fin 1) :
    vLp x0 x1 (ix2 r u)
      = rowLogpW (fun k => x0 (ix2 r k)) (Ideal.fptosi 32 (x1 (ix3 (0 : Fin 1) (0 : Fin 2) r))) := by
  unfold vLp rowLogpW
  rw [subf_apply, vLse_apply, Cert.LibKeepdims.shapeCast_a_a1_apply]
  congr 1
  refine (rowSumRed_apply _ _ _ _ _ r).trans ?_
  refine Finset.sum_congr rfl fun k _ => ?_
  rw [select_apply]
  show Scalar.select (IntOp.cmpi .eq (iota .tc S1024x1000 32 [1] _ (ix2 r k))
      (broadcastTo S1024x1000 (vLab x1) _ (ix2 r k))) (vSh x0 (ix2 r k)) (Ideal.ofBits .f32 0x00000000#32) = _
  rw [iota_single_apply, Cert.LibKeepdims.broadcastTo_a1_ab_apply, vLab_apply, vSh_apply]
  unfold Scalar.select
  exact if_congr (cmpi_eq_one_iff _ _) rfl rfl

/-- Row `r`'s contribution. -/
theorem vTerm_apply (x0 : Vec Ideal S1024x1000 .f32) (x1 : Vec Ideal S1x2x1024 .f32) (r : Fin 1024) (u : Fin 1) :
    vTerm x0 x1 (ix2 r u)
      = focal (x1 (ix3 (0 : Fin 1) (1 : Fin 2) r))
          (rowLogpW (fun k => x0 (ix2 r k)) (Ideal.fptosi 32 (x1 (ix3 (0 : Fin 1) (0 : Fin 2) r)))) := by
  unfold vTerm focal
  show (vW x1 (ix2 r u) * ((oneF - Ideal.exp (vLp x0 x1 (ix2 r u))) * (oneF - Ideal.exp (vLp x0 x1 (ix2 r u)))))
      * vLp x0 x1 (ix2 r u) = _
  rw [vW_apply, vLp_apply]

/-- One tile: the running sum plus the sum over the tile's 1024 rows of the row contributions, each from the row of the
    logits block, the row's label (plane 0 of the side block, converted back to a word) and its weight (plane 1). -/
theorem pay4_eq (x0 : Vec Ideal S1024x1000 .f32) (x1 : Vec Ideal S1x2x1024 .f32) (a : Vec Ideal S1x1 .f32) :
    k0_pay4 (F := Ideal) x0 x1 a
      = fun j => (a j : EReal) + ∑ r : Fin 1024,
          focal (x1 (ix3 (0 : Fin 1) (1 : Fin 2) r))
            (rowLogpW (fun k => x0 (ix2 r k)) (Ideal.fptosi 32 (x1 (ix3 (0 : Fin 1) (0 : Fin 2) r)))) := by
  rw [pay4_struct]
  funext j
  rw [shapeCast_self]
  obtain ⟨p, q, rfl⟩ : ∃ p q, j = ix2 p q := ⟨j 0, j 1, eq_ix2 j⟩
  rw [addf_apply, Cert.LibKeepdims.shapeCast_a_a1_apply]
  congr 1
  refine (colSumRed_apply _ _ _ _ _ p).trans ?_
  exact Finset.sum_congr rfl fun r _ => vTerm_apply x0 x1 r 0

/-- The last tile's write: the running sum at entry (0, 0) of the [8, 128] block, +0.0 elsewhere. -/
theorem pay1_eq (v : Vec Ideal S1x1 .f32) :
    k0_pay1 (F := Ideal) v = fun j => if j = ix2 (0 : Fin 8) (0 : Fin 128) then (v (ix2 (0 : Fin 1) (0 : Fin 1)) : EReal) else zeroF := by
  funext j
  unfold k0_pay1
  rw [shapeCast_self]
  obtain ⟨a, b, rfl⟩ : ∃ a b, j = ix2 a b := ⟨j 0, j 1, eq_ix2 j⟩
  have hb : broadcastTo S8x128 v broadcasts_S1x1_S8x128 (ix2 a b) = v (ix2 (0 : Fin 1) (0 : Fin 1)) :=
    broadcastTo_apply v _ _ _ (fun ax => match ax with | ⟨0, _⟩ => rfl | ⟨1, _⟩ => rfl)
  rw [select_apply, hb]
  show Scalar.select (IntOp.andi (IntOp.cmpi .eq (iota .tc S8x128 32 [0] _ (ix2 a b)) 0#32)
    (IntOp.cmpi .eq (iota .tc S8x128 32 [1] _ (ix2 a b)) 0#32)) _ _ = _
  rw [iota_single_apply, iota_single_apply]
  -- the mask bit is 1 exactly at the entry (0, 0)
  have key : IntOp.andi (IntOp.cmpi .eq (BitVec.ofNat 32 a.val) 0#32) (IntOp.cmpi .eq (BitVec.ofNat 32 b.val) 0#32) = 1#1
      ↔ ix2 a b = ix2 (0 : Fin 8) (0 : Fin 128) := by
    rw [andi_one_iff, cmpi_eq_one_iff, cmpi_eq_one_iff, ofNat_eq_zero_iff (by have := a.isLt; omega),
      ofNat_eq_zero_iff (by have := b.isLt; omega)]
    constructor
    · rintro ⟨ha, hb'⟩
      obtain rfl : a = 0 := Fin.ext ha
      obtain rfl : b = 0 := Fin.ext hb'
      rfl
    · intro e
      exact ⟨congrArg Fin.val (congrFun e (0 : Fin 2)), congrArg Fin.val (congrFun e (1 : Fin 2))⟩
  unfold Scalar.select
  exact if_congr key rfl rfl

/-- The reset of the running sum. -/
theorem pay2_eq : k0_pay2 (F := Ideal) = fun _ => zeroF := by
  unfold k0_pay2
  exact shapeCast_self _ _

/-- The reset of the output block. -/
theorem pay3_eq : k0_pay3 (F := Ideal) = fun _ => zeroF := rfl

end Cert.KernelIdeal.BodyValue

end
-- ==== Proof.KernelFinal.lean ====
/-
  The output array after the launch, and the program's result after the host lines that follow it.
  Core k's last tile writes, into block k of the [16, 128] output, the core's running sum at entry (0, 0) and +0.0 elsewhere;
  the two blocks tile the array. The host then sums the array, divides by the batch size and negates.
-/
import proofs.«413535_j55671366091232_3_alg».proof.Proof.KernelAcc
import proofs.«413535_j55671366091232_3_alg».proof.Proof.KernelBody
import Idealize.ShloMosaic.Lib.Pipeline.Value
import Idealize.ShloMosaic.Lib.StableHlo.Run
import Idealize.ShloMosaic.Lib.ValueIdx

set_option maxRecDepth 16384

noncomputable section

namespace Cert.KernelIdeal.Final

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Acc Cert.KernelIdeal.BodyValue Cert.CostSen

variable (m : (ℓ : Loc nD τ sig) → Buf (Elt Ideal) ℓ) (ρ : Dev nD → PrngReg)

/-- The scratch after grid point `n`, for every natural number (the reset value past the grid). -/
def accT (c : Dev nD) (n : ℕ) : Vec Ideal S1x1 .f32 :=
  if h : n < cfg0.N then acc m c n h else k0_pay2 (F := Ideal)

theorem accT_of_lt (c : Dev nD) (n : ℕ) (h : n < cfg0.N) : accT m c n = acc m c n h := dif_pos h

/-- What the output array holds after the launch: row 8k, column 0 holds core k's sum after its last tile (point 8k + 7). -/
def outArr (c : Dev nD) : S16x128.Idx → EReal := fun i =>
  if (i 0).val % 8 = 0 ∧ (i 1).val = 0 then (accT m c (8 * ((i 0).val / 8) + 7) (ix2 (0 : Fin 1) (0 : Fin 1)) : EReal) else zeroF

/-- The printed index maps over the grid: the output's block is the core, a point's input blocks are the point's. -/
theorem idx_facts : ∀ t : Fin cfg0.N, win0_2.index t (0 : Fin 2) = t.val / 8 ∧ win0_2.index t (1 : Fin 2) = 0
    ∧ win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- What a core's last point writes back is its block of the array above. -/
theorem flushed_eq (c : Dev nD) (t : Fin cfg0.N) (hf : (cfg0.win 2).flush t = true) :
    (dats m 0 c).flushed 2 t = ((cfg0.win 2).blk t).view.read (Elt Ideal) (outArr m c) := by
  have h7 : t.val % 8 = 7 := (flush0_2 t).mp hf
  have hN : t.val < 16 := lt_of_lt_of_eq t.isLt (show cfg0.N = 16 from N_0)
  obtain ⟨e0, e1, -⟩ := idx_facts t
  show (cfg0.win 2).cut (grid0.coords t) ((dats m 0 c).after 2 t) = _
  rw [after0_2, out_last m c t.val t.isLt h7, pay1_eq]
  funext y
  show (if (y : S8x128.Idx) = ix2 (0 : Fin 8) (0 : Fin 128) then (acc m c t.val t.isLt (ix2 (0 : Fin 1) (0 : Fin 1)) : EReal) else zeroF)
    = outArr m c (((cfg0.win 2).blk t).view.emb y)
  have hy0 : (((cfg0.win 2).blk t).view.emb y (0 : Fin 2)).val = t.val / 8 * 8 + (y 0).val := by
    show win0_2.index t (0 : Fin 2) * 8 + 1 * (y 0).val = _
    rw [e0]; omega
  have hy1 : (((cfg0.win 2).blk t).view.emb y (1 : Fin 2)).val = (y 1).val := by
    show win0_2.index t (1 : Fin 2) * 128 + 1 * (y 1).val = _
    rw [e1]; omega
  have hb0 : (y 0).val < 8 := (y 0).isLt
  unfold outArr
  simp only [hy0, hy1]
  by_cases hy : (y : S8x128.Idx) = ix2 (0 : Fin 8) (0 : Fin 128)
  · have z0 : (y 0).val = 0 := by rw [hy]; rfl
    have z1 : (y 1).val = 0 := by rw [hy]; rfl
    rw [if_pos hy, if_pos ⟨by omega, z1⟩, z0, show 8 * ((t.val / 8 * 8 + 0) / 8) + 7 = t.val from by omega, accT_of_lt m c t.val t.isLt]
  · rw [if_neg hy, if_neg]
    rintro ⟨a0, a1⟩
    apply hy
    rw [eq_ix2 y]
    congr 1
    · exact Fin.ext (by show (y 0).val = 0; omega)
    · exact Fin.ext (by show (y 1).val = 0; omega)

/-- An index of the array is in point `t`'s block iff each coordinate is in the block's range on its axis. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v30).slice (win0_2.rect t)).set ↔ _
  rw [View.set_slice_whole, Rect.mem_set_unit]
  exact Iff.rfl

/-- The two cores' last points cover the array: row r lies in the block of core r / 8. -/
theorem cover (c : Dev nD) (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 16 := N_0
  let t : Fin cfg0.N := ⟨8 * ((i 0).val / 8) + 7, by rw [hN]; omega⟩
  have ht : t.val = 8 * ((i 0).val / 8) + 7 := rfl
  obtain ⟨e0, e1, -⟩ := idx_facts t
  refine ⟨t, (flush0_2 t).mpr (by rw [ht]; omega), ?_⟩
  rw [mem_blk]
  intro a
  match a with
  | ⟨0, _⟩ => show win0_2.index t (0 : Fin 2) * 8 ≤ (i 0).val ∧ (i 0).val < win0_2.index t (0 : Fin 2) * 8 + 8; rw [e0, ht]; omega
  | ⟨1, _⟩ => show win0_2.index t (1 : Fin 2) * 128 ≤ (i 1).val ∧ (i 1).val < win0_2.index t (1 : Fin 2) * 128 + 128; rw [e1]; omega

/-- The output array after the launch. -/
theorem final (c : Dev nD) : (dats m 0 c).arrAt 2 cfg0.N = outArr m c :=
  (dats m 0 c).arrAt_eq_of_cover 2 (outArr m c) (flushed_eq m c) (cover c)

/-- The program's result after the host lines that follow the launch: minus the array's sum over the batch size. -/
theorem tail_eq (c : Dev nD) :
    Pipeline.afterTail₀ cfgs (dats m) 0 (V0 m) [hostOps1] c main_v33
      = Host.negf (Host.divf (Host.reduceAdd (F := Ideal) (outArr m c) (constant (F := Ideal) S_ .f32 0x00000000#32) reducesTo_S16x128_S_d0_1 h_S_)
          (constant (F := Ideal) S_ .f32 0x46800000#32)) := by
  unfold Pipeline.afterTail₀
  show StableHlo.after hostOps1 _ (Proc.devRef .tc main_v33) = _
  after_results
  have e : Pipeline.withArrays (cfgs 0).spec c (V0 m c) (fun w => (dats m 0 c).arrAt w (cfgs 0).N) (Proc.devRef .tc main_v30)
      = outArr m c :=
    (Pipeline.withArrays_arr spec0 launch0.win.arr_inj c _ _ 2).trans (final m c)
  rw [e]

end Cert.KernelIdeal.Final

end
-- ==== Proof.KernelHost.lean ====
/-
  What the host lines before the launch put in the packed side input [16, 2, 1024]: plane 0 of tile T holds the labels of
  rows 1024 T .. 1024 T + 1023 as floats, plane 1 their weights.
-/
import proofs.«413535_j55671366091232_3_alg».proof.Proof.Gen.KernelIdeal.Frame
import proofs.«413535_j55671366091232_3_alg».proof.Proof.Spec
import proofs.«413535_j55671366091232_3_alg».proof.Proof.LibScatterRows
import proofs.«413535_j55671366091232_3_alg».proof.Proof.Counts
import Idealize.ShloMosaic.Lib.ValueIdx
import Idealize.ShloMosaic.Lib.ValueLayout
import Idealize.ShloMosaic.Lib.StableHlo.Predicate
import Idealize.ShloMosaic.Lib.StableHlo.Run
import Idealize.ShloMosaic.Lib.IdealHost
import Idealize.ShloMosaic.PureOps.Ideal.Laws

noncomputable section

namespace Cert.KernelIdeal.HostValue

open Idealize.ShloMosaic Idealize.ShloMosaic.TcCoe Idealize.ShloMosaic.ValueIdx Idealize.SL.Sem
open Cert.KernelIdeal Cert.KernelIdeal.Gen Cert.CostSen

variable (m : (ℓ : Loc nD τ sig) → Buf (Elt Ideal) ℓ)

/-- The logits as launched, by row and class. -/
abbrev xArr (c : Dev nD) : Fin 16384 → Fin 1000 → EReal :=
  fun i k => (m ((c.tc : Thread nD τ).loc main_arg0) : S16384x1000.Idx → EReal) (ix2 i k)

/-- The labels as launched, by row. -/
abbrev labArr (c : Dev nD) : Fin 16384 → BitVec 32 :=
  fun e => (m ((c.tc : Thread nD τ).loc main_arg1) : S16384.Idx → BitVec 32) (ix1 e)

/-- Row `j` of tile `T` is row 1024 T + j of the batch. -/
abbrev rowOf (T : Fin 16) (j : Fin 1024) : Fin 16384 := ⟨1024 * T.val + j.val, by have := T.isLt; have := j.isLt; omega⟩

/-! ## The host operations before the launch, as one term of the launched labels -/

/-- Operations run one list after another are the two lists' operations in turn. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The labels clipped to [0, 999]: the smaller of 999 and the larger of 0 and the label. -/
def clipped (lab : IVec S16384 32) : IVec S16384 32 :=
  minsi (broadcastInDim S16384 ![] bcast_S_S16384 (constantI S_ 32 999#32))
    (maxsi (broadcastInDim S16384 ![] bcast_S_S16384 (constantI S_ 32 0#32)) lab)

/-- A negative index wrapped around the 1000 classes: l + 1000 where l < 0, else l. -/
def wrapped (L : IVec S16384 32) : IVec S16384 32 :=
  select (cmpi .slt L (broadcastInDim S16384 ![] bcast_S_S16384 (constantI S_ 32 0#32)))
    (addi L (broadcastInDim S16384 ![] bcast_S_S16384 (constantI S_ 32 1000#32))) L

/-- The wrapped labels as a column of one-entry index vectors. -/
def column (L : IVec S16384 32) : IVec S16384x1 32 :=
  broadcastInDim S16384x1 ![0] bcast_S16384_S16384x1_0 (wrapped L)

/-- The class histogram: ones added into 1000 zeros at the labels, then converted to floats. -/
def hist (L : IVec S16384 32) : FVec Ideal S1000 .f32 :=
  sitofp .f32 (Host.scatter scatter_S1000_S16384x1_S16384_n_0_0_1 IntOp.addi
    (broadcastInDim S1000 ![] bcast_S_S1000 (constantI S_ 32 0#32)) (column L)
    (broadcastInDim S16384 ![] bcast_S_S16384 (constantI S_ 32 1#32)))

/-- Each row's count: the histogram taken at the row's label. -/
def gathered (L : IVec S16384 32) : FVec Ideal S16384 .f32 :=
  Host.gather gather_S1000_S16384x1_S16384_n_0_n_n_0_1_1 (hist L) (column L)

/-- Each row's frequency r = n / 16384. -/
def ratio (L : IVec S16384 32) : FVec Ideal S16384 .f32 :=
  Host.divf (gathered L) (broadcastInDim S16384 ![] bcast_S_S16384 (constant (F := Ideal) S_ .f32 0x46800000#32))

/-- Each row's weight e^(r - 1) / r. -/
def weights (L : IVec S16384 32) : FVec Ideal S16384 .f32 :=
  Host.divf (Host.exp (subf (ratio L) (broadcastInDim S16384 ![] bcast_S_S16384 (constant (F := Ideal) S_ .f32 0x3F800000#32))))
    (ratio L)

/-- A vector of 16384 floats as 16 tiles of one plane of 1024. -/
def plane (v : FVec Ideal S16384 .f32) : FVec Ideal S16x1x1024 .f32 :=
  broadcastInDim S16x1x1024 ![0, 2] bcast_S16x1024_S16x1x1024_0_2
    (fun i => shapeCast S16x1024 v shapeCasts_S16384_S16x1024 i)

/-- The clipped labels, from the labels as launched (the first eight operations). -/
theorem after_clip (W : Valuation τ sig (Elt Ideal)) :
    (StableHlo.after ((hostOps0 (F := Ideal)) ++ hostOps0_1) W (Proc.devRef .tc main_v0) : S16384.Idx → BitVec 32)
      = clipped (W (Proc.devRef .tc main_arg1)) := by
  simp only [Gen.hostOps0, Gen.hostOps0_1, List.cons_append, List.nil_append]
  open StableHlo in after_results_simp
  rfl

/-- Plane 0 before the concatenation: the labels it finds, as floats. -/
theorem after_plane0 (W : Valuation τ sig (Elt Ideal)) :
    (StableHlo.after (List.take 36 (hostOps0_2 (F := Ideal))) W (Proc.devRef .tc main_v27) : S16x1x1024.Idx → EReal)
      = plane (sitofp .f32 (W (Proc.devRef .tc main_v0) : S16384.Idx → BitVec 32)) := by
  simp only [Gen.hostOps0_2, List.take_succ_cons, List.take_zero]
  open StableHlo in after_results_simp
  rfl

/-- Plane 1 before the concatenation: the weights of the labels it finds. -/
theorem after_plane1 (W : Valuation τ sig (Elt Ideal)) :
    (StableHlo.after (List.take 36 (hostOps0_2 (F := Ideal))) W (Proc.devRef .tc main_v28) : S16x1x1024.Idx → EReal)
      = plane (weights (W (Proc.devRef .tc main_v0) : S16384.Idx → BitVec 32)) := by
  simp only [Gen.hostOps0_2, List.take_succ_cons, List.take_zero]
  open StableHlo in after_results_simp
  rfl

/-- The concatenation of the two planes. -/
theorem after_concat (W : Valuation τ sig (Elt Ideal)) :
    (StableHlo.after (List.drop 36 (hostOps0_2 (F := Ideal))) W (Proc.devRef .tc main_v29) : S16x2x1024.Idx → EReal)
      = concatenate S16x2x1024 1 [⟨S16x1x1024, (W (Proc.devRef .tc main_v27) : S16x1x1024.Idx → EReal)⟩,
          ⟨S16x1x1024, (W (Proc.devRef .tc main_v28) : S16x1x1024.Idx → EReal)⟩]
          concatenates_S16x1x1024_S16x1x1024_S16x2x1024_d1 := by
  simp only [Gen.hostOps0_2, List.drop_succ_cons, List.drop_zero]
  open StableHlo in after_results_simp

/-- The packed side input as one term of the labels as launched. -/
theorem packed_term (c : Dev nD) :
    (V m c main_v29 : S16x2x1024.Idx → EReal)
      = concatenate S16x2x1024 1
          [⟨S16x1x1024, plane (sitofp .f32 (clipped (m ((c.tc : Thread nD τ).loc main_arg1))))⟩,
           ⟨S16x1x1024, plane (weights (clipped (m ((c.tc : Thread nD τ).loc main_arg1))))⟩]
          concatenates_S16x1x1024_S16x1x1024_S16x2x1024_d1 := by
  dsimp only [Gen.V, Gen.V0]
  have hsplit : List.flatten [(hostOps0 (F := Ideal)), hostOps0_1, hostOps0_2]
      = ((hostOps0 (F := Ideal)) ++ hostOps0_1) ++ (List.take 36 hostOps0_2 ++ List.drop 36 hostOps0_2) := by
    rw [List.take_append_drop]
    simp only [List.flatten_cons, List.flatten_nil, List.append_nil, List.append_assoc]
  rw [hsplit, after_append, after_append, after_concat, after_plane0, after_plane1, after_clip]

/-! ## The term read at an index -/

/-- A word in [0, 1000), read signed, is left alone by the clip to [0, 999]. -/
theorem clip_word (w : BitVec 32) (h : 0 ≤ w.toInt ∧ w.toInt < 1000) :
    IntOp.minsi 999#32 (IntOp.maxsi 0#32 w) = w := by
  have h0 : (0#32 : BitVec 32).toInt = 0 := by decide
  have h9 : (999#32 : BitVec 32).toInt = 999 := by decide
  have hmax : IntOp.maxsi 0#32 w = w := by
    unfold IntOp.maxsi
    rw [if_neg]
    rw [BitVec.slt_iff_toInt_lt, h0]
    omega
  rw [hmax]
  unfold IntOp.minsi
  rw [if_neg]
  rw [BitVec.slt_iff_toInt_lt, h9]
  omega

/-- A word that is not negative, read signed, is left alone by the wrap of negative indices. -/
theorem wrap_word (w : BitVec 32) (h : 0 ≤ w.toInt) :
    Scalar.select (IntOp.cmpi .slt w 0#32) (IntOp.addi w 1000#32) w = w := by
  have h0 : (0#32 : BitVec 32).toInt = 0 := by decide
  have hc : w.slt 0#32 = false := by
    rw [Bool.eq_false_iff, Ne, BitVec.slt_iff_toInt_lt, h0]
    omega
  have : IntOp.cmpi .slt w 0#32 = 0#1 := by
    show BitVec.ofBool (w.slt 0#32) = 0#1
    rw [hc]; rfl
  rw [this]
  exact select_zero _ _

theorem clipped_apply (lab : IVec S16384 32) (i : S16384.Idx) :
    clipped lab i = IntOp.minsi 999#32 (IntOp.maxsi 0#32 (lab i)) := rfl

theorem wrapped_apply (L : IVec S16384 32) (i : S16384.Idx) :
    wrapped L i = Scalar.select (IntOp.cmpi .slt (L i) 0#32) (IntOp.addi (L i) 1000#32) (L i) := rfl

open Idealize.ShloMosaic.StableHlo.Predicate in
/-- The column of wrapped labels at row e is the wrapped label of row e. -/
theorem column_apply (L : IVec S16384 32) (e : Fin 16384) : column L (ixP e) = wrapped L (ix1 e) := by
  unfold column
  refine (broadcastInDim_apply _ _ _ (ixP e) (ix1 e) (fun a => match a with | ⟨0, _⟩ => rfl)).trans rfl

/-- A vector laid out as 16 tiles of 1024, read at tile T, row j: entry 1024 T + j. -/
theorem plane_apply (v : FVec Ideal S16384 .f32) (T : Fin 16) (j : Fin 1024) :
    plane v (ix3 T (0 : Fin 1) j) = v (ix1 (rowOf T j)) := by
  unfold plane
  refine (broadcastInDim_apply _ _ _ (ix3 T (0 : Fin 1) j) (ix2 T j)
    (fun a => match a with | ⟨0, _⟩ => rfl | ⟨1, _⟩ => rfl)).trans ?_
  refine shapeCast_apply _ _ (ix2 T j) (ix1 (rowOf T j)) ?_
  rw [Shape.rowMajor_val_one, Shape.rowMajor_val_two]
  show 1024 * T.val + j.val = T.val * 1024 + j.val
  omega

/-- Two planes stacked along axis 1, read in plane 0: the first. -/
theorem stacked_at0 (x₁ x₂ : FVec Ideal S16x1x1024 .f32) (T : Fin 16) (j : Fin 1024) :
    concatenate S16x2x1024 1 [⟨S16x1x1024, x₁⟩, ⟨S16x1x1024, x₂⟩] concatenates_S16x1x1024_S16x1x1024_S16x2x1024_d1
      (ix3 T (0 : Fin 2) j) = x₁ (ix3 T (0 : Fin 1) j) :=
  concatenate_pair_apply_left (1 : Fin 3) x₁ x₂ _ (ix3 T (0 : Fin 2) j) rfl (ix3 T (0 : Fin 1) j)
    (fun b => match b with | ⟨0, _⟩ => rfl | ⟨1, _⟩ => rfl | ⟨2, _⟩ => rfl)

/-- Read in plane 1: the second. -/
theorem stacked_at1 (x₁ x₂ : FVec Ideal S16x1x1024 .f32) (T : Fin 16) (j : Fin 1024) :
    concatenate S16x2x1024 1 [⟨S16x1x1024, x₁⟩, ⟨S16x1x1024, x₂⟩] concatenates_S16x1x1024_S16x1x1024_S16x2x1024_d1
      (ix3 T (1 : Fin 2) j) = x₂ (ix3 T (0 : Fin 1) j) :=
  concatenate_pair_apply_right (1 : Fin 3) x₁ x₂ _ (ix3 T (1 : Fin 2) j) rfl rfl (ix3 T (0 : Fin 1) j)
    (fun b => match b with
      | ⟨0, _⟩ => fun _ => rfl
      | ⟨1, _⟩ => fun hb => absurd rfl hb
      | ⟨2, _⟩ => fun _ => rfl) rfl

/-- The weight at a row is the specification's weight of the row's count. -/
theorem weights_apply (L : IVec S16384 32) (i : S16384.Idx) : weights L i = weight (gathered L i) := rfl

open Idealize.ShloMosaic.StableHlo.Predicate in
/-- The count taken at a row whose label is in range is the histogram at the label's class. -/
theorem gathered_apply (L : IVec S16384 32) (e : Fin 16384)
    (h : 0 ≤ (column L (ixP e)).toInt ∧ (column L (ixP e)).toInt < 1000) :
    gathered L (ix1 e) = hist L (ix1 (cls (column L (ixP e)))) :=
  Counts.take_at gather_S1000_S16384x1_S16384_n_0_n_n_0_1_1 rfl rfl rfl rfl (hist L) (column L) e h

open Idealize.ShloMosaic.StableHlo.Predicate in
/-- The histogram at a class is the number of labels of that class. -/
theorem hist_apply (L : IVec S16384 32) (c : Fin 1000) :
    hist L (ix1 c) = count (fun e => column L (ixP e)) c :=
  Counts.int_count scatter_S1000_S16384x1_S16384_n_0_0_1 rfl rfl rfl rfl (column L) c

open Idealize.ShloMosaic.StableHlo.Predicate in
/-- With every label in range the clip and the wrap change nothing: the column of indices holds the labels. -/
theorem column_clipped (lab : IVec S16384 32)
    (h : ∀ e : Fin 16384, 0 ≤ (lab (ix1 e)).toInt ∧ (lab (ix1 e)).toInt < 1000) (e : Fin 16384) :
    column (clipped lab) (ixP e) = lab (ix1 e) := by
  rw [column_apply, wrapped_apply, clipped_apply, clip_word _ (h e), wrap_word _ (h e).1]

/-- Plane 0 of the packed side input: the row's label as a float (the label is in range, so the clip changes nothing). -/
theorem packed_label (c : Dev nD)
    (h : ∀ e : Fin 16384, 0 ≤ (labArr m c e).toInt ∧ (labArr m c e).toInt < 1000) (T : Fin 16) (j : Fin 1024) :
    (V m c main_v29 : S16x2x1024.Idx → EReal) (ix3 T (0 : Fin 2) j) = (((labArr m c (rowOf T j)).toInt : ℝ) : EReal) := by
  refine (congrFun (packed_term m c) _).trans ?_
  rw [stacked_at0, plane_apply]
  show (((clipped (m ((c.tc : Thread nD τ).loc main_arg1)) (ix1 (rowOf T j))).toInt : ℝ) : EReal) = _
  rw [clipped_apply, clip_word _ (h (rowOf T j))]

/-- Plane 1: the row's weight, from the count of its label in the batch. -/
theorem packed_weight (c : Dev nD)
    (h : ∀ e : Fin 16384, 0 ≤ (labArr m c e).toInt ∧ (labArr m c e).toInt < 1000) (T : Fin 16) (j : Fin 1024) :
    (V m c main_v29 : S16x2x1024.Idx → EReal) (ix3 T (1 : Fin 2) j)
      = weight (count (labArr m c) (cls (labArr m c (rowOf T j)))) := by
  refine (congrFun (packed_term m c) _).trans ?_
  rw [stacked_at1, plane_apply, weights_apply]
  have hcol := column_clipped (m ((c.tc : Thread nD τ).loc main_arg1)) h
  have hf : (fun e => column (clipped (m ((c.tc : Thread nD τ).loc main_arg1))) (StableHlo.Predicate.ixP e)) = labArr m c :=
    funext hcol
  rw [gathered_apply _ _ (by rw [hcol]; exact h _), hist_apply, hf, hcol]

end Cert.KernelIdeal.HostValue

end
-- ==== Proof.LibMoments.lean ====
import Mathlib.Data.EReal.Inv
import Mathlib.Data.Fintype.BigOperators
import Mathlib.Algebra.BigOperators.Fin
import Mathlib.Algebra.Order.BigOperators.Group.Finset
import Mathlib.Logic.Equiv.Fin.Basic
import Mathlib.Tactic.FieldSimp
import Mathlib.Tactic.Ring
import Mathlib.Tactic.Positivity
import Idealize.ShloMosaic.PureOps.Ideal

/-!
# Batch-norm moments on the extended reals

A batch normalisation needs the mean and the (biased) variance of a finite family
of numbers. One program computes the variance as E[f²] − E[f]², multiplying the two
sums by the reciprocal 1/n; the other computes it as E[(f − E f)²], dividing by n.
On the extended reals the two agree only where nothing is infinite (at an infinity
one side meets ∞ − ∞), so the identity is proved for finite families: real witnesses
are chosen, the coercion ℝ → EReal is pushed outwards through products, differences
and finite sums, and the statement is closed in ℝ.

Also here: the variance is a finite real ≥ 0, so adding a positive ε and taking the
reciprocal square root stays finite and positive; and a sum over n = nb · bk indices
is the sum, over nb blocks, of the bk-term block sums, which is what a running
accumulator carried over the blocks holds at the end.
-/

open scoped BigOperators
open Idealize.ShloMosaic

noncomputable section

namespace Cert.Moments

/-! ### The coercion ℝ → EReal through a finite sum -/

/-- The sum of the coercions of finitely many reals is the coercion of their sum:
    the coercion is additive, by induction on the index set. -/
theorem coe_sum {ι : Type*} (s : Finset ι) (r : ι → ℝ) :
    (∑ i ∈ s, ((r i : ℝ) : EReal)) = ((∑ i ∈ s, r i : ℝ) : EReal) := by
  classical
  induction s using Finset.induction_on with
  | empty => simp
  | insert a s ha ih => rw [Finset.sum_insert ha, Finset.sum_insert ha, ih, EReal.coe_add]

/-! ### The mean -/

/-- A sum times the reciprocal of a nonzero real n is the sum divided by n, at the
    infinities too (no finiteness is needed). -/
theorem mean_mul_eq_div {ι : Type*} [Fintype ι] (f : ι → EReal) {n : ℝ} (hn : n ≠ 0) :
    (∑ i, f i) * ((1 / n : ℝ) : EReal) = Ideal.div (∑ i, f i) (n : EReal) :=
  (Ideal.div_coe hn _).symm

/-- The same for any extended real in place of the sum. -/
theorem mul_inv_eq_div (x : EReal) {n : ℝ} (hn : n ≠ 0) :
    x * ((1 / n : ℝ) : EReal) = Ideal.div x (n : EReal) :=
  (Ideal.div_coe hn x).symm

/-! ### The variance identity, in ℝ -/

/-- E[r²] − E[r]² = E[(r − E r)²] for n = |ι| real numbers, with every mean written
    as a product with 1/n. Expanding the square, the cross term is −2·m·S and the
    constant term is n·m², and S/n = m. -/
theorem real_variance_identity {ι : Type*} [Fintype ι] (r : ι → ℝ) {n : ℝ}
    (hcard : (Fintype.card ι : ℝ) = n) (hn : n ≠ 0) :
    (∑ i, r i * r i) * (1 / n) - ((∑ i, r i) * (1 / n)) * ((∑ i, r i) * (1 / n))
      = (∑ i, (r i - (∑ i, r i) * (1 / n)) * (r i - (∑ i, r i) * (1 / n))) * (1 / n) := by
  generalize hS : (∑ i, r i) = S
  generalize hm : S * (1 / n) = m
  have hexp : ∑ i, (r i - m) * (r i - m) = (∑ i, r i * r i) - 2 * m * S + n * (m * m) := by
    have h1 : ∀ i, (r i - m) * (r i - m) = r i * r i - 2 * m * r i + m * m := fun i => by ring
    simp only [h1, Finset.sum_add_distrib, Finset.sum_sub_distrib, ← Finset.mul_sum,
      Finset.sum_const, Finset.card_univ, nsmul_eq_mul, hcard, hS]
    ring
  rw [hexp, ← hm]
  field_simp
  ring

/-- The centred second moment of real numbers, divided by a positive n, is ≥ 0:
    a sum of squares times a positive number. -/
theorem real_centred_moment_nonneg {ι : Type*} [Fintype ι] (r : ι → ℝ) (m : ℝ) {n : ℝ} (hn : 0 < n) :
    0 ≤ (∑ i, (r i - m) * (r i - m)) * (1 / n) :=
  mul_nonneg (Finset.sum_nonneg fun i _ => mul_self_nonneg _) (by positivity)

/-! ### The variance identity, on the extended reals -/

/-- THE VARIANCE IDENTITY. For a family f of n = |ι| FINITE extended reals and
    m := (∑ f) · (1/n):  (∑ f²) · (1/n) − m · m = (∑ (f − m) · (f − m)) / n.
    Left: the mean of squares minus the squared mean, each mean a product with the
    reciprocal 1/n. Right: the mean of the squared deviations, a division by n, the
    square written as the product of the deviation with itself. False at an
    infinity (the left side meets ∞ − ∞), hence the finiteness. -/
theorem variance_identity {ι : Type*} [Fintype ι] (f : ι → EReal)
    (hf : ∀ i, ∃ r : ℝ, f i = (r : EReal)) {n : ℝ} (hcard : (Fintype.card ι : ℝ) = n) (hn : n ≠ 0) :
    (∑ i, f i * f i) * ((1 / n : ℝ) : EReal)
        - ((∑ i, f i) * ((1 / n : ℝ) : EReal)) * ((∑ i, f i) * ((1 / n : ℝ) : EReal))
      = Ideal.div (∑ i, (f i - (∑ i, f i) * ((1 / n : ℝ) : EReal))
                        * (f i - (∑ i, f i) * ((1 / n : ℝ) : EReal))) (n : EReal) := by
  choose r hr using hf
  obtain rfl : f = fun i => (r i : EReal) := funext hr
  rw [Ideal.div_coe hn]
  simp only [← EReal.coe_mul, coe_sum, ← EReal.coe_sub]
  exact congrArg _ (real_variance_identity r hcard hn)

/-- The variance identity with the mean on the right written as a DIVISION by n, as a
    program that divides (rather than multiplies by a reciprocal) writes it:
    (∑ f²)·(1/n) − m·m = (∑ (f − μ)·(f − μ)) / n  with m = (∑ f)·(1/n), μ = (∑ f)/n. -/
theorem variance_identity_div {ι : Type*} [Fintype ι] (f : ι → EReal)
    (hf : ∀ i, ∃ r : ℝ, f i = (r : EReal)) {n : ℝ} (hcard : (Fintype.card ι : ℝ) = n) (hn : n ≠ 0) :
    (∑ i, f i * f i) * ((1 / n : ℝ) : EReal)
        - ((∑ i, f i) * ((1 / n : ℝ) : EReal)) * ((∑ i, f i) * ((1 / n : ℝ) : EReal))
      = Ideal.div (∑ i, (f i - Ideal.div (∑ i, f i) (n : EReal))
                        * (f i - Ideal.div (∑ i, f i) (n : EReal))) (n : EReal) := by
  rw [← mean_mul_eq_div f hn]
  exact variance_identity f hf hcard hn

/-- The same identity with every subtraction written as the addition of a negation
    (x − y = x + −y on the extended reals, by definition). -/
theorem variance_identity_add_neg {ι : Type*} [Fintype ι] (f : ι → EReal)
    (hf : ∀ i, ∃ r : ℝ, f i = (r : EReal)) {n : ℝ} (hcard : (Fintype.card ι : ℝ) = n) (hn : n ≠ 0) :
    (∑ i, f i * f i) * ((1 / n : ℝ) : EReal)
        + -(((∑ i, f i) * ((1 / n : ℝ) : EReal)) * ((∑ i, f i) * ((1 / n : ℝ) : EReal)))
      = Ideal.div (∑ i, (f i + -((∑ i, f i) * ((1 / n : ℝ) : EReal)))
                        * (f i + -((∑ i, f i) * ((1 / n : ℝ) : EReal)))) (n : EReal) := by
  simpa only [sub_eq_add_neg] using variance_identity f hf hcard hn

/-! ### The variance is a finite real ≥ 0 -/

/-- n = |ι| as a real, if nonzero, is positive. -/
theorem card_pos_of_ne_zero {ι : Type*} [Fintype ι] {n : ℝ} (hcard : (Fintype.card ι : ℝ) = n) (hn : n ≠ 0) :
    0 < n :=
  lt_of_le_of_ne (hcard ▸ Nat.cast_nonneg _) (Ne.symm hn)

/-- The mean of a finite family is finite. -/
theorem mean_finite {ι : Type*} [Fintype ι] (f : ι → EReal)
    (hf : ∀ i, ∃ r : ℝ, f i = (r : EReal)) (n : ℝ) :
    ∃ m : ℝ, (∑ i, f i) * ((1 / n : ℝ) : EReal) = (m : EReal) := by
  choose r hr using hf
  obtain rfl : f = fun i => (r i : EReal) := funext hr
  exact ⟨(∑ i, r i) * (1 / n), by rw [coe_sum, ← EReal.coe_mul]⟩

/-- The centred form of the variance of a finite family — the right-hand side of the
    variance identity — is a finite real ≥ 0. -/
theorem var_nonneg_finite {ι : Type*} [Fintype ι] (f : ι → EReal)
    (hf : ∀ i, ∃ r : ℝ, f i = (r : EReal)) {n : ℝ} (hcard : (Fintype.card ι : ℝ) = n) (hn : n ≠ 0) :
    ∃ v : ℝ, 0 ≤ v ∧
      Ideal.div (∑ i, (f i - (∑ i, f i) * ((1 / n : ℝ) : EReal))
                      * (f i - (∑ i, f i) * ((1 / n : ℝ) : EReal))) (n : EReal) = (v : EReal) := by
  choose r hr using hf
  obtain rfl : f = fun i => (r i : EReal) := funext hr
  refine ⟨(∑ i, (r i - (∑ i, r i) * (1 / n)) * (r i - (∑ i, r i) * (1 / n))) * (1 / n),
    real_centred_moment_nonneg r _ (card_pos_of_ne_zero hcard hn), ?_⟩
  rw [Ideal.div_coe hn]
  simp only [← EReal.coe_mul, coe_sum, ← EReal.coe_sub]

/-- The same with the inner mean written as a division by n. -/
theorem var_nonneg_finite_div {ι : Type*} [Fintype ι] (f : ι → EReal)
    (hf : ∀ i, ∃ r : ℝ, f i = (r : EReal)) {n : ℝ} (hcard : (Fintype.card ι : ℝ) = n) (hn : n ≠ 0) :
    ∃ v : ℝ, 0 ≤ v ∧
      Ideal.div (∑ i, (f i - Ideal.div (∑ i, f i) (n : EReal))
                      * (f i - Ideal.div (∑ i, f i) (n : EReal))) (n : EReal) = (v : EReal) := by
  rw [← mean_mul_eq_div f hn]
  exact var_nonneg_finite f hf hcard hn

/-- The moment form of the variance — the left-hand side of the variance identity —
    is the same finite real ≥ 0. -/
theorem var_moment_nonneg_finite {ι : Type*} [Fintype ι] (f : ι → EReal)
    (hf : ∀ i, ∃ r : ℝ, f i = (r : EReal)) {n : ℝ} (hcard : (Fintype.card ι : ℝ) = n) (hn : n ≠ 0) :
    ∃ v : ℝ, 0 ≤ v ∧
      (∑ i, f i * f i) * ((1 / n : ℝ) : EReal)
        - ((∑ i, f i) * ((1 / n : ℝ) : EReal)) * ((∑ i, f i) * ((1 / n : ℝ) : EReal)) = (v : EReal) := by
  rw [variance_identity f hf hcard hn]
  exact var_nonneg_finite f hf hcard hn

/-! ### The reciprocal square root of variance plus ε -/

/-- The reciprocal square root of a positive real is the real 1/√x, which is positive. -/
theorem rsqrt_coe_of_pos {x : ℝ} (hx : 0 < x) :
    Ideal.rsqrt (x : EReal) = (((Real.sqrt x)⁻¹ : ℝ) : EReal) ∧ 0 < (Real.sqrt x)⁻¹ := by
  refine ⟨?_, inv_pos.mpr (Real.sqrt_pos.mpr hx)⟩
  rw [Ideal.rsqrt_coe, if_neg (not_lt.mpr hx.le), if_neg hx.ne']

/-- A finite real ≥ 0 plus a positive real ε has a finite, positive reciprocal square root. -/
theorem rsqrt_nonneg_add_pos_finite {v ε : ℝ} (hv : 0 ≤ v) (hε : 0 < ε) :
    ∃ s : ℝ, 0 < s ∧ Ideal.rsqrt ((v : EReal) + (ε : EReal)) = (s : EReal) := by
  have hpos : 0 < v + ε := add_pos_of_nonneg_of_pos hv hε
  exact ⟨(Real.sqrt (v + ε))⁻¹, (rsqrt_coe_of_pos hpos).2, by
    rw [← EReal.coe_add]; exact (rsqrt_coe_of_pos hpos).1⟩

/-- So the reciprocal square root of (centred variance + ε), ε > 0, of a finite family
    is a finite positive real. -/
theorem rsqrt_var_add_eps_finite {ι : Type*} [Fintype ι] (f : ι → EReal)
    (hf : ∀ i, ∃ r : ℝ, f i = (r : EReal)) {n : ℝ} (hcard : (Fintype.card ι : ℝ) = n) (hn : n ≠ 0)
    {ε : ℝ} (hε : 0 < ε) :
    ∃ s : ℝ, 0 < s ∧
      Ideal.rsqrt (Ideal.div (∑ i, (f i - (∑ i, f i) * ((1 / n : ℝ) : EReal))
                                  * (f i - (∑ i, f i) * ((1 / n : ℝ) : EReal))) (n : EReal)
                    + (ε : EReal)) = (s : EReal) := by
  obtain ⟨v, hv, hveq⟩ := var_nonneg_finite f hf hcard hn
  rw [hveq]
  exact rsqrt_nonneg_add_pos_finite hv hε

/-- The same for the moment form (mean of squares minus squared mean) of the variance. -/
theorem rsqrt_var_moment_add_eps_finite {ι : Type*} [Fintype ι] (f : ι → EReal)
    (hf : ∀ i, ∃ r : ℝ, f i = (r : EReal)) {n : ℝ} (hcard : (Fintype.card ι : ℝ) = n) (hn : n ≠ 0)
    {ε : ℝ} (hε : 0 < ε) :
    ∃ s : ℝ, 0 < s ∧
      Ideal.rsqrt ((∑ i, f i * f i) * ((1 / n : ℝ) : EReal)
                    - ((∑ i, f i) * ((1 / n : ℝ) : EReal)) * ((∑ i, f i) * ((1 / n : ℝ) : EReal))
                    + (ε : EReal)) = (s : EReal) := by
  obtain ⟨v, hv, hveq⟩ := var_moment_nonneg_finite f hf hcard hn
  rw [hveq]
  exact rsqrt_nonneg_add_pos_finite hv hε

/-! ### Regrouping a sum into blocks -/

/-- The glued index bk·t + r of row r of block t lies below nb·bk. -/
theorem glue_lt {nb bk : ℕ} (t : Fin nb) (r : Fin bk) : bk * t.val + r.val < nb * bk := by
  have h1 : bk * t.val + r.val < bk * (t.val + 1) := by
    rw [Nat.mul_succ]; exact Nat.add_lt_add_left r.isLt _
  have h2 : bk * (t.val + 1) ≤ bk * nb := Nat.mul_le_mul_left _ t.isLt
  rw [Nat.mul_comm nb bk]
  exact lt_of_lt_of_le h1 h2

/-- A sum over nb·bk indices is the sum over the nb blocks of the bk-term block sums,
    in any additive commutative monoid (no finiteness): the pairs (t, r) and the
    indices bk·t + r correspond one to one. -/
theorem sum_blocks {M : Type*} [AddCommMonoid M] (nb bk : ℕ) (g : Fin (nb * bk) → M) :
    ∑ t : Fin nb, ∑ r : Fin bk, g ⟨bk * t.val + r.val, glue_lt t r⟩ = ∑ i : Fin (nb * bk), g i := by
  rw [← Fintype.sum_prod_type', ← Equiv.sum_comp finProdFinEquiv g]
  refine Fintype.sum_congr _ _ fun p => congrArg g (Fin.ext ?_)
  simp only [finProdFinEquiv_apply_val]
  exact Nat.add_comm _ _

/-- The case of 50000 rows in 10 blocks of 5000. -/
theorem sum_blocks_50000 {M : Type*} [AddCommMonoid M] (g : Fin 50000 → M) :
    ∑ t : Fin 10, ∑ r : Fin 5000, g ⟨5000 * t.val + r.val, by have := t.isLt; have := r.isLt; omega⟩
      = ∑ i : Fin 50000, g i :=
  sum_blocks 10 5000 g

/-- A running accumulator: folding acc ↦ acc + b t over t = 0, …, nb − 1 from a
    leaves a plus the sum of the b t. -/
theorem foldl_add_eq_sum {M : Type*} [AddCommMonoid M] (nb : ℕ) (b : Fin nb → M) (a : M) :
    (List.finRange nb).foldl (fun acc t => acc + b t) a = a + ∑ t : Fin nb, b t := by
  rw [← List.sum_ofFn, List.ofFn_eq_map]
  generalize List.finRange nb = l
  induction l generalizing a with
  | nil => simp
  | cons x l ih => rw [List.foldl_cons, ih, List.map_cons, List.sum_cons, add_assoc]

/-- The same for an accumulator given by its recurrence over the natural numbers:
    if A 0 = a and A (t+1) = A t + b t for each t < nb, then A nb = a + ∑ b. -/
theorem rec_add_eq_sum {M : Type*} [AddCommMonoid M] (nb : ℕ) (b : Fin nb → M) (A : ℕ → M) (a : M)
    (h0 : A 0 = a) (hstep : ∀ t : Fin nb, A (t.val + 1) = A t.val + b t) :
    A nb = a + ∑ t : Fin nb, b t := by
  induction nb with
  | zero => simpa using h0
  | succ k ih =>
    rw [Fin.sum_univ_castSucc, ← add_assoc,
      ← ih (fun t => b t.castSucc) (fun t => by simpa using hstep t.castSucc)]
    simpa using hstep (Fin.last k)

/-- So the accumulator carried over the 10 blocks of 5000 rows, started at 0, ends at
    the sum over all 50000 rows (no finiteness needed). -/
theorem foldl_blocks_50000 {M : Type*} [AddCommMonoid M] (g : Fin 50000 → M) :
    (List.finRange 10).foldl
        (fun acc t => acc + ∑ r : Fin 5000, g ⟨5000 * t.val + r.val, by have := t.isLt; have := r.isLt; omega⟩) 0
      = ∑ i : Fin 50000, g i := by
  rw [foldl_add_eq_sum, zero_add]
  exact sum_blocks_50000 g

end Cert.Moments
-- ==== Proof.KernelValue.lean ====
/-
  The kernel program's result is the loss of Spec.lean.
  A grid point's partial sum, read through its two input blocks, is the sum of the row contributions of the point's 1024 rows;
  a core's running sum after its last tile is +0.0 plus its eight partial sums; the output array's total is the two cores'
  sums; and sums over the extended reals regroup freely, so the total is the sum over the whole batch.
-/
import proofs.«413535_j55671366091232_3_alg».proof.Proof.KernelFinal
import proofs.«413535_j55671366091232_3_alg».proof.Proof.KernelHost
import proofs.«413535_j55671366091232_3_alg».proof.Proof.LibMoments
import Idealize.ShloMosaic.PureOps.Ideal.Laws

set_option maxRecDepth 16384

noncomputable section

namespace Cert.KernelIdeal.KValue

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Acc Cert.KernelIdeal.BodyValue Cert.KernelIdeal.Final
open Cert.KernelIdeal.HostValue Cert.CostSen
open scoped BigOperators

variable (m : (ℓ : Loc nD τ sig) → Buf (Elt Ideal) ℓ) (ρ : Dev nD → PrngReg)

/-- Every launched label is a class number. -/
def LabelsOk (c : Dev nD) : Prop := ∀ e : Fin 16384, 0 ≤ (labArr m c e).toInt ∧ (labArr m c e).toInt < 1000

/-- A class number converted to a float and back to a word is itself. -/
theorem fptosi_label (l : BitVec 32) (h : 0 ≤ l.toInt ∧ l.toInt < 1000) :
    Ideal.fptosi 32 (((l.toInt : ℝ)) : EReal) = l := by
  unfold Ideal.fptosi
  have e : Ideal.toIntClamped (-((2 ^ (32 - 1) : Nat) : Int)) (((2 ^ (32 - 1) : Nat) : Int) - 1) (((l.toInt : ℝ)) : EReal)
      = l.toInt := by
    show max _ (min _ (if (0 : ℝ) ≤ (l.toInt : ℝ) then ⌊(l.toInt : ℝ)⌋ else ⌈(l.toInt : ℝ)⌉)) = _
    rw [if_pos (by exact_mod_cast h.1), Int.floor_intCast]
    have h1 := h.1; have h2 := h.2
    rw [min_eq_right (by norm_num; omega), max_eq_right (by norm_num; omega)]
  rw [e, BitVec.ofInt_toInt]

theorem hN16 : cfg0.N = 16 := N_0

/-- The logits block of point `t` holds rows 1024 t .. 1024 t + 1023 of the logits as launched. -/
theorem xblk_apply (c : Dev nD) (t : Fin cfg0.N) (r : Fin 1024) (k : Fin 1000) :
    (xblk m c t : S1024x1000.Idx → EReal) (ix2 r k)
      = xArr m c (rowOf ⟨t.val, lt_of_lt_of_eq t.isLt hN16⟩ r) k := by
  obtain ⟨-, -, e0, e1, -⟩ := idx_facts t
  show ((cfg0.win 0).blk t).view.read (Elt Ideal) (V m c main_arg0) (ix2 r k) = _
  rw [View.read_apply]
  show V m c main_arg0 (((cfg0.win 0).blk t).view.emb (ix2 r k)) = m ((c.tc : Thread nD τ).loc main_arg0) (ix2 _ k)
  rw [V_main_arg0]
  congr 1
  funext a
  apply Fin.ext
  match a with
  | ⟨0, _⟩ => show win0_0.index t (0 : Fin 2) * 1024 + 1 * r.val = 1024 * t.val + r.val; rw [e0]; omega
  | ⟨1, _⟩ => show win0_0.index t (1 : Fin 2) * 1000 + 1 * k.val = k.val; rw [e1]; omega

/-- The side block of point `t` is tile `t` of the packed side input. -/
theorem sblk_apply (c : Dev nD) (t : Fin cfg0.N) (pl : Fin 2) (r : Fin 1024) :
    (sblk m c t : S1x2x1024.Idx → EReal) (ix3 (0 : Fin 1) pl r)
      = (V m c main_v29 : S16x2x1024.Idx → EReal) (ix3 (⟨t.val, lt_of_lt_of_eq t.isLt hN16⟩ : Fin 16) pl r) := by
  obtain ⟨-, -, -, -, e0, e1, e2⟩ := idx_facts t
  show ((cfg0.win 1).blk t).view.read (Elt Ideal) (V m c main_v29) (ix3 (0 : Fin 1) pl r) = _
  rw [View.read_apply]
  show V m c main_v29 (((cfg0.win 1).blk t).view.emb (ix3 (0 : Fin 1) pl r)) = V m c main_v29 (ix3 _ pl r)
  congr 1
  funext a
  apply Fin.ext
  match a with
  | ⟨0, _⟩ => show win0_1.index t (0 : Fin 3) * 1 + 1 * 0 = t.val; rw [e0]; omega
  | ⟨1, _⟩ => show win0_1.index t (1 : Fin 3) * 2 + 1 * pl.val = pl.val; rw [e1]; omega
  | ⟨2, _⟩ => show win0_1.index t (2 : Fin 3) * 1024 + 1 * r.val = r.val; rw [e2]; omega

/-- The partial sum of grid point `n` (0 past the grid). -/
def psum (c : Dev nD) (n : ℕ) : EReal :=
  if h : n < cfg0.N then
    ∑ r : Fin 1024, focal ((sblk m c ⟨n, h⟩ : S1x2x1024.Idx → EReal) (ix3 (0 : Fin 1) (1 : Fin 2) r))
      (rowLogpW (fun k => (xblk m c ⟨n, h⟩ : S1024x1000.Idx → EReal) (ix2 r k))
        (Ideal.fptosi 32 ((sblk m c ⟨n, h⟩ : S1x2x1024.Idx → EReal) (ix3 (0 : Fin 1) (0 : Fin 2) r))))
  else 0

/-- For labels in range a point's partial sum is the sum of its rows' contributions. -/
theorem psum_eq (c : Dev nD) (h : LabelsOk m c) (T : Fin 16) :
    psum m c T.val = ∑ r : Fin 1024, rowValue (xArr m c) (labArr m c) (rowOf T r) := by
  have hT : T.val < cfg0.N := by rw [hN16]; exact T.isLt
  unfold psum
  rw [dif_pos hT]
  refine Finset.sum_congr rfl fun r _ => ?_
  rw [sblk_apply m c ⟨T.val, hT⟩ 1 r, sblk_apply m c ⟨T.val, hT⟩ 0 r]
  show focal ((V m c main_v29 : S16x2x1024.Idx → EReal) (ix3 T 1 r))
      (rowLogpW _ (Ideal.fptosi 32 ((V m c main_v29 : S16x2x1024.Idx → EReal) (ix3 T 0 r)))) = _
  rw [packed_weight m c h T r, packed_label m c h T r, fptosi_label _ (h (rowOf T r))]
  unfold rowValue
  congr 1
  rw [← ofNat_cls (h (rowOf T r)), rowLogpW_ofNat, ofNat_cls (h (rowOf T r))]
  congr 1
  funext k
  exact xblk_apply m c ⟨T.val, hT⟩ r k

/-- A core's first tile leaves the reset value plus its partial sum. -/
theorem acc_first_val (c : Dev nD) (n : ℕ) (h : n < cfg0.N) (h0 : n % 8 = 0) :
    (acc m c n h (ix2 (0 : Fin 1) (0 : Fin 1)) : EReal) = zeroF + psum m c n := by
  rw [acc_first m c n h h0, pay4_eq, pay2_eq]
  unfold psum
  rw [dif_pos h]

/-- Every other tile adds its partial sum to what the tile before left. -/
theorem acc_next_val (c : Dev nD) (n : ℕ) (h : n + 1 < cfg0.N) (h0 : ¬(n + 1) % 8 = 0) :
    (acc m c (n + 1) h (ix2 (0 : Fin 1) (0 : Fin 1)) : EReal)
      = (acc m c n (Nat.lt_of_succ_lt h) (ix2 (0 : Fin 1) (0 : Fin 1)) : EReal) + psum m c (n + 1) := by
  rw [acc_next m c n h h0, pay4_eq]
  unfold psum
  rw [dif_pos h]

/-- A core's running sum after its last tile: +0.0 plus the core's eight partial sums. -/
theorem core_sum (c : Dev nD) (k : ℕ) (hk : k < 2) :
    (accT m c (8 * k + 7) (ix2 (0 : Fin 1) (0 : Fin 1)) : EReal) = zeroF + ∑ s : Fin 8, psum m c (8 * k + s.val) := by
  have hN := hN16
  let A : ℕ → EReal := fun s => if s = 0 then zeroF else (accT m c (8 * k + (s - 1)) (ix2 (0 : Fin 1) (0 : Fin 1)) : EReal)
  have hA : A 8 = zeroF + ∑ s : Fin 8, psum m c (8 * k + s.val) := by
    refine Cert.Moments.rec_add_eq_sum 8 (fun s : Fin 8 => psum m c (8 * k + s.val)) A zeroF rfl fun s => ?_
    have hs := s.isLt
    show (if s.val + 1 = 0 then zeroF else (accT m c (8 * k + (s.val + 1 - 1)) (ix2 (0 : Fin 1) (0 : Fin 1)) : EReal))
      = (if s.val = 0 then zeroF else (accT m c (8 * k + (s.val - 1)) (ix2 (0 : Fin 1) (0 : Fin 1)) : EReal)) + psum m c (8 * k + s.val)
    rw [if_neg (Nat.succ_ne_zero _), Nat.add_sub_cancel]
    have hlt : 8 * k + s.val < cfg0.N := by rw [hN]; omega
    rw [accT_of_lt m c _ hlt]
    by_cases hs0 : s.val = 0
    · rw [if_pos hs0]
      exact acc_first_val m c _ hlt (by omega)
    · rw [if_neg hs0]
      obtain ⟨n, hn⟩ : ∃ n, 8 * k + s.val = n + 1 := ⟨8 * k + s.val - 1, by omega⟩
      have hlt' : n + 1 < cfg0.N := hn ▸ hlt
      have hpre : 8 * k + (s.val - 1) = n := by omega
      rw [accT_of_lt m c _ (show 8 * k + (s.val - 1) < cfg0.N by rw [hN]; omega)]
      have e1 : acc m c (8 * k + s.val) hlt = acc m c (n + 1) hlt' := by congr 1
      have e2 : acc m c (8 * k + (s.val - 1)) (by rw [hN]; omega) = acc m c n (Nat.lt_of_succ_lt hlt') := by congr 1
      rw [e1, e2, hn]
      exact acc_next_val m c n hlt' (by omega)
  exact hA

theorem zeroF_eq : zeroF = 0 := Ideal.ofBits_zero_f32

/-- The output array's total: the two cores' sums. -/
theorem sum_outArr (c : Dev nD) :
    ∑ i : S16x128.Idx, outArr m c i
      = (accT m c 7 (ix2 (0 : Fin 1) (0 : Fin 1)) : EReal) + (accT m c 15 (ix2 (0 : Fin 1) (0 : Fin 1)) : EReal) := by
  rw [sum_idx2]
  have inner : ∀ a : Fin 16, ∑ b : Fin 128, outArr m c (ix2 a b)
      = if a.val % 8 = 0 then (accT m c (8 * (a.val / 8) + 7) (ix2 (0 : Fin 1) (0 : Fin 1)) : EReal) else 0 := by
    intro a
    by_cases ha : a.val % 8 = 0
    · rw [if_pos ha, Finset.sum_eq_single (0 : Fin 128)]
      · show (if a.val % 8 = 0 ∧ ((0 : Fin 128) : ℕ) = 0 then _ else zeroF) = _
        rw [if_pos ⟨ha, rfl⟩]
      · intro b _ hb
        show (if a.val % 8 = 0 ∧ b.val = 0 then _ else zeroF) = 0
        rw [if_neg (fun hh => hb (Fin.ext hh.2)), zeroF_eq]
      · intro hh; exact absurd (Finset.mem_univ _) hh
    · rw [if_neg ha]
      refine Finset.sum_eq_zero fun b _ => ?_
      show (if a.val % 8 = 0 ∧ b.val = 0 then _ else zeroF) = 0
      rw [if_neg (fun hh => ha hh.1), zeroF_eq]
  rw [Finset.sum_congr rfl fun a _ => inner a]
  rw [Fin.sum_univ_eq_sum_range (fun n => if n % 8 = 0 then (accT m c (8 * (n / 8) + 7) (ix2 (0 : Fin 1) (0 : Fin 1)) : EReal) else 0) 16]
  simp [Finset.sum_range_succ]

/-- The two cores' sums together are the sum over the whole batch: sixteen tiles of 1024 rows, regrouped. -/
theorem total_eq (c : Dev nD) (h : LabelsOk m c) :
    (zeroF + ∑ s : Fin 8, psum m c (8 * 0 + s.val)) + (zeroF + ∑ s : Fin 8, psum m c (8 * 1 + s.val))
      = ∑ i : Fin 16384, rowValue (xArr m c) (labArr m c) i := by
  rw [zeroF_eq, zero_add, zero_add]
  have h1 := Cert.Moments.sum_blocks 2 8 (fun i : Fin (2 * 8) => psum m c i.val)
  rw [Fin.sum_univ_two] at h1
  refine h1.trans ?_
  have h2 := Cert.Moments.sum_blocks 16 1024 (fun i : Fin (16 * 1024) => rowValue (xArr m c) (labArr m c) ⟨i.val, i.isLt⟩)
  refine Eq.trans ?_ h2
  show ∑ T : Fin 16, psum m c T.val = _
  exact Finset.sum_congr rfl fun T _ => psum_eq m c h T

/-- The kernel program's result buffer after the whole run: the loss. -/
theorem kernel_value (c : Dev nD) (h : LabelsOk m c) :
    Pipeline.afterTail₀ cfgs (dats m) 0 (V0 m) [hostOps1] c main_v33 = fun _ => loss (xArr m c) (labArr m c) := by
  rw [tail_eq]
  funext i
  simp only [Host.negf, Host.divf, Host.reduceAdd, constant, Ideal.hostNegf_def, Ideal.hostDivf_def, Ideal.hostReduceAdd_def,
    Ideal.ofBits_def]
  rw [Ideal.hostReduceAdd_total reducesTo_S16x128_S_d0_1 (fun b => b.elim0), sum_outArr]
  have c0 := core_sum m c 0 (by norm_num)
  have c1 := core_sum m c 1 (by norm_num)
  rw [show 8 * 0 + 7 = 7 from rfl] at c0
  rw [show 8 * 1 + 7 = 15 from rfl] at c1
  rw [c0, c1, total_eq m c h]
  rfl

/-- The kernel program's run, read: it ends with the loss in its result buffer and its arguments as launched. -/
theorem run (h : ∀ c, LabelsOk m c) :
    θ_run defs (onTc (τ := τ) (main (F := Ideal))) ⟨m, fun _ => 0, ρ⟩ fun r => ∀ c : Dev nD,
      r.2.mem ((c.tc : Thread nD τ).loc main_v33) = (fun _ => loss (xArr m c) (labArr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ hr c =>
      ⟨((hr c).2 main_v33 (Pipeline.mem_restRefs_of main_v33 (by decide) (by decide))).trans (kernel_value m c (h c)),
       ((hr c).1 0).trans (((dats m 0 c).arrAt_in 0 rfl _).trans ((A_eq m c 0).trans (V_main_arg0 m c))),
       ((hr c).2 main_arg1 (Pipeline.mem_restRefs_of main_arg1 (by decide) (by decide))).trans (W_main_arg1 m (dats m) c)⟩)
    (run_main m ρ)

end Cert.KernelIdeal.KValue

end
-- ==== Proof.lean ====
/-
  A cost-sensitive focal loss, computed two ways.

  Both programs take a batch of 16384 rows of 1000 logits and one class label per row, and return minus the mean over the
  batch of  w (1 - p)^2 log p,  where log p is the row's log-softmax at its own label, p = exp (log p), and the weight
  w = exp (r - 1) / r depends on the relative frequency r = n / 16384 of the row's label in the batch.

  The reference computes the log-softmax of every entry, weights every entry, and then takes each row's entry at its
  label. The kernel computes only the label's entry: per tile of 1024 rows it takes the row maxima, the sums of
  exponentials and, by a masked sum over the classes, the shifted logit at the label; it accumulates the tiles' partial
  sums of a core in a one-entry scratch, writes each core's sum into one entry of a [16, 128] array of zeros, and the host
  sums that array. The histogram of the labels is an integer scatter on the kernel's side and a float scatter on the
  reference's; both count the labels of each class.

  Over the extended reals the two results are the same function of the inputs as soon as every label is a class number
  (0 <= label < 1000, which the precondition states): the masked sum picks one entry, the two histograms agree, and a
  sum regrouped by tiles and cores is the same sum. No finiteness of the logits is used.
-/
import proofs.«413535_j55671366091232_3_alg».proof.Defs
import proofs.«413535_j55671366091232_3_alg».proof.Proof.Gen.Kernel
import proofs.«413535_j55671366091232_3_alg».proof.Proof.Gen.Kernel.Skeleton
import proofs.«413535_j55671366091232_3_alg».proof.Proof.Gen.Kernel.Launch
import proofs.«413535_j55671366091232_3_alg».proof.Proof.Gen.Kernel.Points
import proofs.«413535_j55671366091232_3_alg».proof.Proof.Gen.Kernel.Frame
import proofs.«413535_j55671366091232_3_alg».proof.Proof.Gen.KernelIdeal
import proofs.«413535_j55671366091232_3_alg».proof.Proof.Gen.KernelIdeal.Skeleton
import proofs.«413535_j55671366091232_3_alg».proof.Proof.Gen.KernelIdeal.Launch
import proofs.«413535_j55671366091232_3_alg».proof.Proof.Gen.KernelIdeal.Points
import proofs.«413535_j55671366091232_3_alg».proof.Proof.Gen.KernelIdeal.Frame
import proofs.«413535_j55671366091232_3_alg».proof.Proof.Gen.ReferenceIdeal
import proofs.«413535_j55671366091232_3_alg».proof.Proof.RefRunP
import proofs.«413535_j55671366091232_3_alg».proof.Proof.RefReadP
import proofs.«413535_j55671366091232_3_alg».proof.Proof.Gen.Pre_finite_inputs
import proofs.«413535_j55671366091232_3_alg».proof.Proof.PreDecode
import proofs.«413535_j55671366091232_3_alg».proof.Proof.RefValue
import proofs.«413535_j55671366091232_3_alg».proof.Proof.KernelValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the logits and the labels, with every label a class number, both programs end with the
    loss of those inputs in their result. -/
theorem algebraic : Cert.algebraic_KernelIdeal_ReferenceIdeal := by
  intro m ρ m' ρ' hpre hagree
  have hlab : ∀ c, Cert.KernelIdeal.KValue.LabelsOk m c := fun c e => Cert.CostSen.labels_in_range _ _ (hpre c) e
  refine ⟨_, Cert.KernelIdeal.KValue.run m ρ hlab, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v36_eq, (hagree c).1, (hagree c).2]
  exact Cert.ReferenceIdeal.RefValue.ref_value _ _ (hlab c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
